-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x1 : Shape := ⟨2, ![100000, 1]⟩
abbrev S100000x128 : Shape := ⟨2, ![100000, 128]⟩
abbrev S2x1x128 : Shape := ⟨3, ![2, 1, 128]⟩
abbrev S5000x64 : Shape := ⟨2, ![5000, 64]⟩
abbrev S5000x128 : Shape := ⟨2, ![5000, 128]⟩
abbrev S1x1x128 : Shape := ⟨3, ![1, 1, 128]⟩
abbrev S2x256x128 : Shape := ⟨3, ![2, 256, 128]⟩
abbrev S5000x1 : Shape := ⟨2, ![5000, 1]⟩
abbrev S1x256x128 : Shape := ⟨3, ![1, 256, 128]⟩
abbrev S5000x256 : Shape := ⟨2, ![5000, 256]⟩
abbrev S256x128 : Shape := ⟨2, ![256, 128]⟩

abbrev nBuf : Space → Nat
  | .hbm => 64
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S100000x1, .i32⟩
  | .hbm, ⟨32, _⟩ => ⟨S100000x128, .f32⟩
  | .hbm, ⟨33, _⟩ => ⟨S2x1x128, .f32⟩
  | .hbm, ⟨34, _⟩ => ⟨S1x1x128, .f32⟩
  | .hbm, ⟨35, _⟩ => ⟨S128, .f32⟩
  | .hbm, ⟨36, _⟩ => ⟨S1x1x128, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S2x1x128, .f32⟩
  | .hbm, ⟨44, _⟩ => ⟨S1x1x128, .f32⟩
  | .hbm, ⟨45, _⟩ => ⟨S128, .f32⟩
  | .hbm, ⟨46, _⟩ => ⟨S1x1x128, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S2x256x128, .f32⟩
  | .hbm, ⟨59, _⟩ => ⟨S1x256x128, .f32⟩
  | .hbm, ⟨60, _⟩ => ⟨S256x128, .f32⟩
  | .hbm, ⟨61, _⟩ => ⟨S1x256x128, .f32⟩
  | .hbm, ⟨62, _⟩ => ⟨S256x128, .f32⟩
  | .hbm, ⟨63, _⟩ => ⟨S256x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x1x128, .f32⟩
  | .local _ .vmem, ⟨13, _⟩ => ⟨S1x1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x1x128, .f32⟩
  | .local _ .vmem, ⟨18, _⟩ => ⟨S1x1x128, .f32⟩
  | .local _ .vmem, ⟨19, _⟩ => ⟨S5000x128, .f32⟩
  | .local _ .vmem, ⟨20, _⟩ => ⟨S5000x128, .f32⟩
  | .local _ .vmem, ⟨21, _⟩ => ⟨S5000x1, .i32⟩
  | .local _ .vmem, ⟨22, _⟩ => ⟨S5000x1, .i32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x256x128, .f32⟩
  | .local _ .vmem, ⟨28, _⟩ => ⟨S1x256x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 10], ![false, false]⟩

def cc2_transform_0 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x256x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S128_S1x128 : S128.ShapeCasts S1x128
  shapeCasts_S100000_S100000x1 : S100000.ShapeCasts S100000x1
  inb_S1x1x128_S1x1x128_0_0_0 : ∀ a, (![0, 0, 0] : Fin 3 → Nat) a + S1x1x128.size a ≤ S1x1x128.size a
  h_S1x1x128 : 0 < S1x1x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  shapeCasts_S1x1x128_S1x1x128 : S1x1x128.ShapeCasts S1x1x128
  shapeCasts_S1x128_S1x1x128 : S1x128.ShapeCasts S1x1x128
  slices_S2x1x128_S1x1x128_0_0_0 : S2x1x128.Slices ![0, 0, 0] S1x1x128
  shapeCasts_S1x1x128_S128 : S1x1x128.ShapeCasts S128
  slices_S2x1x128_S1x1x128_1_0_0 : S2x1x128.Slices ![1, 0, 0] S1x1x128
  bcast_S_S1x128 : S_.BroadcastsInDim S1x128 (![] : Fin 0 → Fin S1x128.rank)
  shapeCasts_S5000x128_S5000x128 : S5000x128.ShapeCasts S5000x128
  inb_S1x256x128_S1x256x128_0_0_0 : ∀ a, (![0, 0, 0] : Fin 3 → Nat) a + S1x256x128.size a ≤ S1x256x128.size a
  h_S1x256x128 : 0 < S1x256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  shapeCasts_S1x256x128_S1x256x128 : S1x256x128.ShapeCasts S1x256x128
  shapeCasts_S256x128_S1x256x128 : S256x128.ShapeCasts S1x256x128
  slices_S2x256x128_S1x256x128_0_0_0 : S2x256x128.Slices ![0, 0, 0] S1x256x128
  shapeCasts_S1x256x128_S256x128 : S1x256x128.ShapeCasts S256x128
  slices_S2x256x128_S1x256x128_1_0_0 : S2x256x128.Slices ![1, 0, 0] S1x256x128
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x256_S5000x128_S256x128_0_0_1_1_n_n_wf : DotDims.WF S5000x256 S5000x128 S256x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S2x1x128.size a
  hwx0_9 : ∀ i : grid0.Coords, EltTy.bits .f32 = 32 ∨ (Rect.block (s := S2x1x128) S1x1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S2x1x128.size a
  hwx1_2 : ∀ i : grid1.Coords, EltTy.bits .f32 = 32 ∨ (Rect.block (s := S2x1x128) S1x1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x256x128.size a ≤ S2x256x128.size a
  hwx2_6 : ∀ i : grid2.Coords, EltTy.bits .f32 = 32 ∨ (Rect.block (s := S2x256x128) S1x256x128.size (cc2_transform_6 i) (hinb2_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_0) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18_1) S1x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v18_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S1x256x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S256x128 : Shape := ⟨2, ![256, 128]⟩
abbrev S100000x1 : Shape := ⟨2, ![100000, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x64, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S_, .i32⟩
  | .hbm, ⟨56, _⟩ => ⟨S_, .f32⟩
  | .hbm, ⟨57, _⟩ => ⟨S128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S256x128, .f32⟩
  | .hbm, ⟨96, _⟩ => ⟨S100000x1, .i32⟩
  | .hbm, ⟨97, _⟩ => ⟨S256x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call2_cst : Ref sig .tc := ⟨.hbm, 47, rfl⟩
abbrev main_call2_v0 : Ref sig .tc := ⟨.hbm, 48, rfl⟩
abbrev main_v29 : Ref sig .tc := ⟨.hbm, 49, rfl⟩
abbrev main_cst_1 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_c_3 : Ref sig .tc := ⟨.hbm, 55, rfl⟩
abbrev main_call3_cst : Ref sig .tc := ⟨.hbm, 56, rfl⟩
abbrev main_call3_v0 : Ref sig .tc := ⟨.hbm, 57, rfl⟩
abbrev main_call3_v1 : Ref sig .tc := ⟨.hbm, 58, rfl⟩
abbrev main_call3_cst_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_cst_1 : Ref sig .tc := ⟨.hbm, 66, rfl⟩
abbrev main_call3_v8 : Ref sig .tc := ⟨.hbm, 67, rfl⟩
abbrev main_call3_cst_2 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_cst_3 : Ref sig .tc := ⟨.hbm, 72, rfl⟩
abbrev main_call3_v12 : Ref sig .tc := ⟨.hbm, 73, rfl⟩
abbrev main_call3_cst_4 : Ref sig .tc := ⟨.hbm, 74, rfl⟩
abbrev main_call3_call0_v0 : Ref sig .tc := ⟨.hbm, 75, rfl⟩
abbrev main_call3_call0_v1 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_4 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_5 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S256x128 : S_.BroadcastsInDim S256x128 (![] : Fin 0 → Fin S256x128.rank)
  bcast_S100000_S100000x1_0 : S100000.BroadcastsInDim S100000x1 (![0] : Fin 1 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf

class Facts : Prop extends Facts₀ where

variable [Facts]
-- ==== Proof.Alg.lean ====
/-
  Sums over the extended reals used to compare a row-blocked accumulation with one whole sum: a sum over
  n * k consecutive naturals as n blocks of k; an accumulator that is reset to zero at the start of every
  period of ten steps and then adds one block per step; squares and their sums are nonnegative; a sum
  weighted by a zero-one indicator is the sum over the indicated part.
-/
import Idealize.ShloMosaic.PureOps.Ideal
import Idealize.ShloMosaic.PureOps.Ideal.Laws
import Mathlib.Algebra.BigOperators.Intervals

noncomputable section

open Finset

namespace Cert.Gin

/-- The zero word read as an extended real. -/
def zero : EReal := Idealize.ShloMosaic.Ideal.ofBits .f32 0x00000000#32

theorem zero_eq : zero = 0 := by
  unfold zero; exact Idealize.ShloMosaic.Ideal.ofBits_zero_f32

/-- A sum over the first n * k naturals is the sum over n blocks of k consecutive ones. -/
theorem sum_range_blocks {M : Type*} [AddCommMonoid M] (f : ℕ → M) (k : ℕ) :
    ∀ n : ℕ, ∑ r ∈ range (n * k), f r = ∑ i ∈ range n, ∑ q ∈ range k, f (k * i + q)
  | 0 => by simp
  | n + 1 => by
    rw [Nat.succ_mul, sum_range_add, sum_range_blocks f k n, sum_range_succ, Nat.mul_comm n k]

/-- The accumulator: at a step whose number is a multiple of ten it restarts from zero plus the step's block,
    otherwise it adds the step's block to what the step before left. -/
def acc (b : ℕ → EReal) : ℕ → EReal
  | 0 => zero + b 0
  | n + 1 => if (n + 1) % 10 = 0 then zero + b (n + 1) else acc b n + b (n + 1)

/-- In closed form: zero plus the blocks of the current period up to the current step. -/
theorem acc_eq (b : ℕ → EReal) : ∀ t : ℕ, acc b t = zero + ∑ i ∈ range (t % 10 + 1), b (t - t % 10 + i)
  | 0 => by simp [acc]
  | n + 1 => by
    unfold acc
    split
    · rename_i h; rw [h]; simp
    · rename_i h
      rw [acc_eq b n]
      have h1 : (n + 1) % 10 = n % 10 + 1 := by omega
      have h2 : n + 1 - (n % 10 + 1) = n - n % 10 := by omega
      rw [h1, h2, sum_range_succ (fun i => b (n - n % 10 + i)) (n % 10 + 1), add_assoc]
      congr 3
      omega

/-- At the last step of a period the accumulator holds zero plus the period's ten blocks. -/
theorem acc_last (b : ℕ → EReal) (s : ℕ) : acc b (10 * s + 9) = zero + ∑ i ∈ range 10, b (10 * s + i) := by
  rw [acc_eq]
  have h1 : (10 * s + 9) % 10 = 9 := by omega
  rw [h1]
  have h2 : 10 * s + 9 - 9 = 10 * s := by omega
  rw [h2]

/-- A square is nonnegative on the extended reals, infinities included. -/
theorem mul_self_nonneg' (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

end Cert.Gin

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.Spec.lean ====
/-
  The mathematics both programs compute, over the extended reals and plain coordinates.

  A node's features go through three dense stages (a matrix product, a bias, a rectifier), the first stage fed with
  the node's own features plus the sum of its in-neighbours'.  The result is normalised column by column with the
  column's mean and (biased) variance over all 100000 nodes, scaled, shifted, and summed per graph.

  One program takes the column sums over all rows at once; the other takes them over twenty consecutive blocks of
  5000 rows, ten blocks per half, each half accumulated from zero, and adds the two halves.  The definitions below
  name the pieces so that the two can be compared: a row read at a natural number, a block's sum, a half's sum.
-/
import proofs.«421296_j1039382085872_3_alg».proof.Proof.Alg
import proofs.«421296_j1039382085872_3_alg».proof.Proof.LibMlp
import Idealize.ShloMosaic.Lib.ValueIdx

noncomputable section

open Finset
open Idealize.ShloMosaic Idealize.ShloMosaic.ValueIdx

namespace Cert.Gin

/-- The variance offset: the single-precision word nearest 1e-5. -/
def eps : EReal := Ideal.ofBits .f32 0x3727C5AC#32
/-- The number of nodes, as the single-precision word 100000.0. -/
def cnt : EReal := Ideal.ofBits .f32 0x47C35000#32

/-- A dense stage with a rectifier: row `i 0` of `a` against column `i 1` of `W`, plus the bias, floored at zero. -/
def dense {N K H : ℕ} (a : (⟨2, ![N, K]⟩ : Shape).Idx → EReal) (W : (⟨2, ![K, H]⟩ : Shape).Idx → EReal)
    (b : Fin H → EReal) : (⟨2, ![N, H]⟩ : Shape).Idx → EReal := fun i =>
  max ((∑ k : Fin K, a (ix2 (i 0) k) * W (ix2 k (i 1))) + b (i 1)) zero

/-- A dense stage reads only the row it is asked for. -/
theorem dense_row {N N' K H : ℕ} (a : (⟨2, ![N, K]⟩ : Shape).Idx → EReal) (a' : (⟨2, ![N', K]⟩ : Shape).Idx → EReal)
    (W : (⟨2, ![K, H]⟩ : Shape).Idx → EReal) (b : Fin H → EReal) (r : Fin N) (r' : Fin N') (j : Fin H)
    (h : ∀ k : Fin K, a (ix2 r k) = a' (ix2 r' k)) : dense a W b (ix2 r j) = dense a' W b (ix2 r' j) := by
  unfold dense
  have : (∑ k : Fin K, a (ix2 r k) * W (ix2 k j)) = ∑ k : Fin K, a' (ix2 r' k) * W (ix2 k j) :=
    Finset.sum_congr rfl fun k _ => by rw [h k]
  exact congrArg (fun s => max (s + b j) zero) this

/-- The three stages on a node's features plus its neighbours' sum. -/
def mlp {N : ℕ} (x agg : (⟨2, ![N, 64]⟩ : Shape).Idx → EReal) (W1 : (⟨2, ![64, 128]⟩ : Shape).Idx → EReal) (b1 : Fin 128 → EReal)
    (W2 : (⟨2, ![128, 128]⟩ : Shape).Idx → EReal) (b2 : Fin 128 → EReal)
    (W3 : (⟨2, ![128, 128]⟩ : Shape).Idx → EReal) (b3 : Fin 128 → EReal) : (⟨2, ![N, 128]⟩ : Shape).Idx → EReal :=
  dense (dense (dense (fun i => x i + agg i) W1 b1) W2 b2) W3 b3

/-- The three stages read only the row they are asked for. -/
theorem mlp_row {N N' : ℕ} (x agg : (⟨2, ![N, 64]⟩ : Shape).Idx → EReal) (x' agg' : (⟨2, ![N', 64]⟩ : Shape).Idx → EReal)
    (W1 : (⟨2, ![64, 128]⟩ : Shape).Idx → EReal) (b1 : Fin 128 → EReal)
    (W2 : (⟨2, ![128, 128]⟩ : Shape).Idx → EReal) (b2 : Fin 128 → EReal)
    (W3 : (⟨2, ![128, 128]⟩ : Shape).Idx → EReal) (b3 : Fin 128 → EReal) (r : Fin N) (r' : Fin N') (j : Fin 128)
    (hx : ∀ k : Fin 64, x (ix2 r k) = x' (ix2 r' k)) (ha : ∀ k : Fin 64, agg (ix2 r k) = agg' (ix2 r' k)) :
    mlp x agg W1 b1 W2 b2 W3 b3 (ix2 r j) = mlp x' agg' W1 b1 W2 b2 W3 b3 (ix2 r' j) :=
  dense_row _ _ W3 b3 r r' j fun k => dense_row _ _ W2 b2 r r' k fun k' => dense_row _ _ W1 b1 r r' k' fun k'' => by
    show x (ix2 r k'') + agg (ix2 r k'') = x' (ix2 r' k'') + agg' (ix2 r' k'')
    rw [hx, ha]

/-- Entry (r, j) of a 100000-row array read at a natural row number (zero past the end). -/
def rowN {H : ℕ} (h : (⟨2, ![100000, H]⟩ : Shape).Idx → EReal) (r : ℕ) (j : Fin H) : EReal :=
  if hr : r < 100000 then h (ix2 ⟨r, hr⟩ j) else 0

/-- Entry r of a 100000-row one-column integer array read at a natural row number. -/
def batchN (b : (⟨2, ![100000, 1]⟩ : Shape).Idx → BitVec 32) (r : ℕ) : BitVec 32 :=
  if hr : r < 100000 then b (ix2 ⟨r, hr⟩ 0) else 0

/-- The sum of block t's 5000 consecutive rows. -/
def blockSum (f : ℕ → EReal) (t : ℕ) : EReal := ∑ q ∈ range 5000, f (5000 * t + q)

/-- A half's accumulated sum: zero plus its ten blocks. -/
def shardSum (f : ℕ → EReal) (s : ℕ) : EReal := zero + ∑ i ∈ range 10, blockSum f (10 * s + i)

/-- The two halves together are the whole sum. -/
theorem shardSum_add (f : ℕ → EReal) : shardSum f 0 + shardSum f 1 = ∑ r ∈ range 100000, f r := by
  unfold shardSum blockSum
  rw [zero_eq, zero_add, zero_add]
  have h := sum_range_blocks f 5000 20
  rw [show 20 * 5000 = 100000 from rfl] at h
  rw [h, show (20 : ℕ) = 10 + 10 from rfl, sum_range_add]
  simp only [Nat.mul_zero, Nat.zero_add, Nat.mul_one]

/-- One value's squared deviation from a mean. -/
def sqdev (a m : EReal) : EReal := (a - m) * (a - m)

/-- One value normalised, scaled and shifted. -/
def bn (a m v g b : EReal) : EReal := (a - m) * Ideal.rsqrt (v + eps) * g + b

/-- The indicator that a node's graph number, a 32-bit word, is g. -/
def hot (w : BitVec 32) (g : Fin 256) : EReal := if w = BitVec.ofNat 32 g.val then 1 else 0

end Cert.Gin

end
-- ==== Proof.KPay0.lean ====
/-
  The arithmetic of the first two kernels' bodies on the extended reals, read index by index: the three dense stages of a block of rows; a column sum added to a running one-row accumulator; squared deviations from a mean summed the same way.
-/
import proofs.«421296_j1039382085872_3_alg».proof.Proof.Gen.KernelIdeal.Skeleton
import proofs.«421296_j1039382085872_3_alg».proof.Proof.Spec
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Val

open Cert.KernelIdeal Cert.KernelIdeal.Gen

/-- One dense stage in the vector dialect's spelling: a product into a zero accumulator, a one-row bias broadcast down
    the rows, and the floor at zero. -/
private theorem stage {N K H : ℕ} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ .f32) (W : FVec Ideal ⟨2, ![K, H]⟩ .f32) (b : FVec Ideal ⟨2, ![1, H]⟩ .f32) :
    maximumf (addf (matmul d none a W (constant ⟨2, ![N, H]⟩ .f32 0x00000000#32)) (broadcastTo ⟨2, ![N, H]⟩ b hb))
        (broadcast ⟨2, ![N, H]⟩ (Scalar.ofBits .f32 0x00000000#32))
      = Cert.Gin.dense a W (Cert.Mlp.row b) := by
  subst hd
  funext i
  obtain ⟨p, q, rfl⟩ : ∃ (p : Fin N) (q : Fin H), i = ix2 p q := ⟨i 0, i 1, eq_ix2 i⟩
  simp only [maximumf_apply, addf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact Cert.Mlp.plain_sum a W (ix2 p q)
  rw [Cert.Mlp.bcast_row hb b p q, hm]
  rfl

/-- The first kernel's block of results is the three dense stages on the block's rows. -/
theorem k0_pay3_eq (x a : Vec Ideal S5000x64 .f32) (w1 : Vec Ideal S64x128 .f32) (b1 : Vec Ideal S1x128 .f32)
    (w2 : Vec Ideal S128x128 .f32) (b2 : Vec Ideal S1x128 .f32) (w3 : Vec Ideal S128x128 .f32) (b3 : Vec Ideal S1x128 .f32) :
    k0_pay3 (F := Ideal) x a w1 b1 w2 b2 w3 b3
      = Cert.Gin.mlp x a w1 (Cert.Mlp.row b1) w2 (Cert.Mlp.row b2) w3 (Cert.Mlp.row b3) := by
  unfold k0_pay3 Cert.Gin.mlp
  simp only [shapeCast_self]
  have h1 := stage (N := 5000) (K := 64) (H := 128) dot_S5000x64_S64x128_S5000x128_1_0_0_1_n_n rfl
    broadcasts_S1x128_S5000x128 (addf x a) w1 b1
  have h2 := fun z => stage (N := 5000) (K := 128) (H := 128) dot_S5000x128_S128x128_S5000x128_1_0_0_1_n_n rfl
    broadcasts_S1x128_S5000x128 z w2 b2
  have h3 := fun z => stage (N := 5000) (K := 128) (H := 128) dot_S5000x128_S128x128_S5000x128_1_0_0_1_n_n rfl
    broadcasts_S1x128_S5000x128 z w3 b3
  refine (h3 _).trans ?_
  refine congrArg (fun z => Cert.Gin.dense z w3 (Cert.Mlp.row b3)) ?_
  refine (h2 _).trans ?_
  refine congrArg (fun z => Cert.Gin.dense z w2 (Cert.Mlp.row b2)) ?_
  exact h1

/-- A vector of 128 entries cast to one row and then to one row of one plane, read at (0, 0, j), is its entry j. -/
private theorem up_apply (y : FVec Ideal S128 .f32) (j : Fin 128) :
    shapeCast S1x1x128 (shapeCast S1x128 y shapeCasts_S128_S1x128) shapeCasts_S1x128_S1x1x128 (ix3 0 0 j) = y (ix1 j) := by
  refine (shapeCast_apply _ shapeCasts_S1x128_S1x1x128 (ix3 0 0 j) (ix2 0 j) ?_).trans
    (shapeCast_apply y shapeCasts_S128_S1x128 (ix2 0 j) (ix1 j) ?_)
  · rw [Shape.rowMajor_val_two, Shape.rowMajor_val_three]
    show 0 * 128 + j.val = (0 * 1 + 0) * 128 + j.val
    omega
  · rw [Shape.rowMajor_val_one, Shape.rowMajor_val_two]
    show j.val = 0 * 128 + j.val
    omega

/-- The sum over the rows of a block of 5000 rows, read at column j. -/
private theorem colsum_apply (v : FVec Ideal S5000x128 .f32) (j : Fin 128) :
    multiReduction (F := Ideal) .add [0] S128 v 0x00000000#32 reduces_S5000x128_S128 (.inl rfl) rfl (ix1 j)
      = ∑ q : Fin 5000, v (ix2 q j) := by
  refine (Ideal.multiReduction_add_single v 0x00000000#32 reduces_S5000x128_S128 (.inl rfl) rfl (ix1 j)).trans ?_
  show ∑ q : Fin 5000, v (reduces_S5000x128_S128.lift (ix1 j) q) = ∑ q : Fin 5000, v (ix2 q j)
  refine Finset.sum_congr rfl fun q _ => congrArg v ?_
  funext a
  apply Fin.ext
  match a with
  | ⟨0, _⟩ => rfl
  | ⟨1, _⟩ => rfl

/-- The first kernel's accumulator update: the running value plus the block's column sum. -/
theorem k0_pay1_apply (v30 : FVec Ideal S5000x128 .f32) (v34 : Vec Ideal S1x1x128 .f32) (j : Fin 128) :
    k0_pay1 (F := Ideal) v30 v34 (ix3 0 0 j) = v34 (ix3 0 0 j) + ∑ q : Fin 5000, v30 (ix2 q j) := by
  unfold k0_pay1
  simp only [shapeCast_self]
  refine (addf_apply _ _ _).trans ?_
  rw [up_apply, colsum_apply]

/-- The first kernel's accumulator reset stores zero. -/
theorem k0_pay2_apply (i : S1x1x128.Idx) : k0_pay2 (F := Ideal) i = Cert.Gin.zero := rfl

/-- The second kernel's accumulator reset stores zero. -/
theorem k1_pay1_apply (i : S1x1x128.Idx) : k1_pay1 (F := Ideal) i = Cert.Gin.zero := rfl

/-- The second kernel's accumulator update: the running value plus the block's column sum of squared deviations from
    the given one-row mean. -/
theorem k1_pay2_apply (v3 : Vec Ideal S5000x128 .f32) (v5 : Vec Ideal S1x128 .f32) (v12 : Vec Ideal S1x1x128 .f32) (j : Fin 128) :
    k1_pay2 (F := Ideal) v3 v5 v12 (ix3 0 0 j)
      = v12 (ix3 0 0 j) + ∑ q : Fin 5000, Cert.Gin.sqdev (v3 (ix2 q j)) (v5 (ix2 0 j)) := by
  unfold k1_pay2
  simp only [shapeCast_self]
  refine (addf_apply _ _ _).trans ?_
  rw [up_apply, colsum_apply]
  refine congrArg (fun s => v12 (ix3 0 0 j) + s) (Finset.sum_congr rfl fun q _ => ?_)
  simp only [mulf_apply, subf_apply]
  rw [Cert.Mlp.bcast_row broadcasts_S1x128_S5000x128 v5 q j]
  rfl

end Cert.KernelIdeal.Val

end
-- ==== Proof.KReg0.lean ====
/-
  Region 0: what the first kernel leaves in its two result arrays, as functions of the arrays it is entered with.
-/
import proofs.«421296_j1039382085872_3_alg».proof.Proof.Gen.KernelIdeal.Frame
import proofs.«421296_j1039382085872_3_alg».proof.Proof.Spec
import proofs.«421296_j1039382085872_3_alg».proof.Proof.KPay0
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

section Pieces
variable {F : FTy → Type} [FloatOps F]

private theorem hz2 : (![0, 0] : Fin 2 → Nat) = fun _ => 0 := funext fun a => by fin_cases a <;> rfl
private theorem hz3 : (![0, 0, 0] : Fin 3 → Nat) = fun _ => 0 := funext fun a => by fin_cases a <;> rfl

/-- Away from a period's first step the body leaves the three stages of its row block in the first result's buffer. -/
private theorem out0_B_8_eq (c : Dev nD) (i : grid0.Coords) (a2 : Memref sig .tc .vmem S5000x64 .f32) (h2 : a2.IsWhole) (a3 : Memref sig .tc .vmem S5000x64 .f32) (h3 : a3.IsWhole) (a4 : Memref sig .tc .vmem S64x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S128x128 .f32) (h8 : a8.IsWhole) (a9 : Memref sig .tc .vmem S1x128 .f32) (h9 : a9.IsWhole) (a10 : Memref sig .tc .vmem S5000x128 .f32) (h10 : a10.IsWhole) (a11 : Memref sig .tc .vmem S1x1x128 .f32) (h11 : a11.IsWhole) (hc : ¬cond0_0 i) (x0 : Vec F S5000x64 .f32) (x1 : Vec F S5000x64 .f32) (x2 : Vec F S64x128 .f32) (x3 : Vec F S1x128 .f32) (x4 : Vec F S128x128 .f32) (x5 : Vec F S1x128 .f32) (x6 : Vec F S128x128 .f32) (x7 : Vec F S1x128 .f32) (xo9 : Vec F S1x1x128 .f32) :
    out0_B_8 c i a2 h2 a3 h3 a4 h4 a5 h5 a6 h6 a7 h7 a8 h8 a9 h9 a10 h10 a11 h11 hc x0 x1 x2 x3 x4 x5 x6 x7 xo9 = k0_pay3 x0 x1 x2 x3 x4 x5 x6 x7 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 x6 x7 xo9)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, View.ld_unit_zero (S := S5000x64) hz2, View.ld_unit_zero (S := S64x128) hz2, View.ld_unit_zero (S := S1x128) hz2, View.ld_unit_zero (S := S128x128) hz2, View.ld_unit_zero (S := S5000x128) hz2, View.ld_unit_zero (S := S1x1x128) hz3]

/-- Away from a period's first step the body adds the block's column sums to the running accumulator. -/
private theorem out0_B_9_eq (c : Dev nD) (i : grid0.Coords) (a2 : Memref sig .tc .vmem S5000x64 .f32) (h2 : a2.IsWhole) (a3 : Memref sig .tc .vmem S5000x64 .f32) (h3 : a3.IsWhole) (a4 : Memref sig .tc .vmem S64x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S128x128 .f32) (h8 : a8.IsWhole) (a9 : Memref sig .tc .vmem S1x128 .f32) (h9 : a9.IsWhole) (a10 : Memref sig .tc .vmem S5000x128 .f32) (h10 : a10.IsWhole) (a11 : Memref sig .tc .vmem S1x1x128 .f32) (h11 : a11.IsWhole) (hc : ¬cond0_0 i) (x0 : Vec F S5000x64 .f32) (x1 : Vec F S5000x64 .f32) (x2 : Vec F S64x128 .f32) (x3 : Vec F S1x128 .f32) (x4 : Vec F S128x128 .f32) (x5 : Vec F S1x128 .f32) (x6 : Vec F S128x128 .f32) (x7 : Vec F S1x128 .f32) (xo9 : Vec F S1x1x128 .f32) :
    out0_B_9 c i a2 h2 a3 h3 a4 h4 a5 h5 a6 h6 a7 h7 a8 h8 a9 h9 a10 h10 a11 h11 hc x0 x1 x2 x3 x4 x5 x6 x7 xo9 = k0_pay1 (k0_pay3 x0 x1 x2 x3 x4 x5 x6 x7) xo9 := by
  unfold out0_B_9
  rw [View.read_writes_eq_canon _ _ _ (cover0_B_9 c i a2 h2 a3 h3 a4 h4 a5 h5 a6 h6 a7 h7 a8 h8 a9 h9 a10 h10 a11 h11 hc x0 x1 x2 x3 x4 x5 x6 x7 xo9)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread, View.ld_unit_zero (S := S5000x64) hz2, View.ld_unit_zero (S := S64x128) hz2, View.ld_unit_zero (S := S1x128) hz2, View.ld_unit_zero (S := S128x128) hz2, View.ld_unit_zero (S := S5000x128) hz2, View.ld_unit_zero (S := S1x1x128) hz3]

/-- At a period's first step the first result's buffer is left the same way. -/
private theorem out0_A_8_eq (c : Dev nD) (i : grid0.Coords) (a2 : Memref sig .tc .vmem S5000x64 .f32) (h2 : a2.IsWhole) (a3 : Memref sig .tc .vmem S5000x64 .f32) (h3 : a3.IsWhole) (a4 : Memref sig .tc .vmem S64x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S128x128 .f32) (h8 : a8.IsWhole) (a9 : Memref sig .tc .vmem S1x128 .f32) (h9 : a9.IsWhole) (a10 : Memref sig .tc .vmem S5000x128 .f32) (h10 : a10.IsWhole) (a11 : Memref sig .tc .vmem S1x1x128 .f32) (h11 : a11.IsWhole) (hc : cond0_0 i) (x0 : Vec F S5000x64 .f32) (x1 : Vec F S5000x64 .f32) (x2 : Vec F S64x128 .f32) (x3 : Vec F S1x128 .f32) (x4 : Vec F S128x128 .f32) (x5 : Vec F S1x128 .f32) (x6 : Vec F S128x128 .f32) (x7 : Vec F S1x128 .f32) :
    out0_A_8 c i a2 h2 a3 h3 a4 h4 a5 h5 a6 h6 a7 h7 a8 h8 a9 h9 a10 h10 a11 h11 hc x0 x1 x2 x3 x4 x5 x6 x7 = k0_pay3 x0 x1 x2 x3 x4 x5 x6 x7 := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, View.ld_unit_zero (S := S5000x64) hz2, View.ld_unit_zero (S := S64x128) hz2, View.ld_unit_zero (S := S1x128) hz2, View.ld_unit_zero (S := S128x128) hz2, View.ld_unit_zero (S := S5000x128) hz2, View.ld_unit_zero (S := S1x1x128) hz3]

/-- At a period's first step the accumulator is reset to zero, read back, and the block's column sums are added. -/
private theorem out0_A_9_eq (c : Dev nD) (i : grid0.Coords) (a2 : Memref sig .tc .vmem S5000x64 .f32) (h2 : a2.IsWhole) (a3 : Memref sig .tc .vmem S5000x64 .f32) (h3 : a3.IsWhole) (a4 : Memref sig .tc .vmem S64x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S128x128 .f32) (h8 : a8.IsWhole) (a9 : Memref sig .tc .vmem S1x128 .f32) (h9 : a9.IsWhole) (a10 : Memref sig .tc .vmem S5000x128 .f32) (h10 : a10.IsWhole) (a11 : Memref sig .tc .vmem S1x1x128 .f32) (h11 : a11.IsWhole) (hc : cond0_0 i) (x0 : Vec F S5000x64 .f32) (x1 : Vec F S5000x64 .f32) (x2 : Vec F S64x128 .f32) (x3 : Vec F S1x128 .f32) (x4 : Vec F S128x128 .f32) (x5 : Vec F S1x128 .f32) (x6 : Vec F S128x128 .f32) (x7 : Vec F S1x128 .f32) :
    out0_A_9 c i a2 h2 a3 h3 a4 h4 a5 h5 a6 h6 a7 h7 a8 h8 a9 h9 a10 h10 a11 h11 hc x0 x1 x2 x3 x4 x5 x6 x7 = k0_pay1 (k0_pay3 x0 x1 x2 x3 x4 x5 x6 x7) k0_pay2 := by
  unfold out0_A_9
  rw [View.read_writes_eq_canon _ _ _ (cover0_A_9 c i a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread, h7.read_unread, h8.read_unread, h9.read_unread, h10.read_unread, h11.read_unread, View.ld_unit_zero (S := S5000x64) hz2, View.ld_unit_zero (S := S64x128) hz2, View.ld_unit_zero (S := S1x128) hz2, View.ld_unit_zero (S := S128x128) hz2, View.ld_unit_zero (S := S5000x128) hz2, View.ld_unit_zero (S := S1x1x128) hz3]

end Pieces

variable (V : (c : Dev nD) → (b : Ref sig .tc) → Buf (Elt Ideal) ((c : Thread nD τ).loc b))

/-- The arrays region 0 is entered with, at their literal types. -/
abbrev X0 (c : Dev nD) : Vec Ideal S100000x64 .f32 := V c main_arg0
abbrev A0 (c : Dev nD) : Vec Ideal S100000x64 .f32 := V c main_v13
abbrev W10 (c : Dev nD) : Vec Ideal S64x128 .f32 := V c main_arg3
abbrev B10 (c : Dev nD) : Vec Ideal S1x128 .f32 := V c main_v14
abbrev W20 (c : Dev nD) : Vec Ideal S128x128 .f32 := V c main_arg5
abbrev B20 (c : Dev nD) : Vec Ideal S1x128 .f32 := V c main_v15
abbrev W30 (c : Dev nD) : Vec Ideal S128x128 .f32 := V c main_arg7
abbrev B30 (c : Dev nD) : Vec Ideal S1x128 .f32 := V c main_v16

/-- The three dense stages on every row. -/
def H0 (c : Dev nD) : S100000x128.Idx → EReal :=
  Cert.Gin.mlp (X0 V c) (A0 V c) (W10 V c) (Cert.Mlp.row (B10 V c)) (W20 V c) (Cert.Mlp.row (B20 V c)) (W30 V c) (Cert.Mlp.row (B30 V c))

/-- The eight input blocks at a point, at their literal types. -/
private abbrev xb (c : Dev nD) (t : Fin cfg0.N) : Vec Ideal S5000x64 .f32 := iblk0 V c 0 t
private abbrev ab (c : Dev nD) (t : Fin cfg0.N) : Vec Ideal S5000x64 .f32 := iblk0 V c 1 t
private abbrev w1b (c : Dev nD) (t : Fin cfg0.N) : Vec Ideal S64x128 .f32 := iblk0 V c 2 t
private abbrev b1b (c : Dev nD) (t : Fin cfg0.N) : Vec Ideal S1x128 .f32 := iblk0 V c 3 t
private abbrev w2b (c : Dev nD) (t : Fin cfg0.N) : Vec Ideal S128x128 .f32 := iblk0 V c 4 t
private abbrev b2b (c : Dev nD) (t : Fin cfg0.N) : Vec Ideal S1x128 .f32 := iblk0 V c 5 t
private abbrev w3b (c : Dev nD) (t : Fin cfg0.N) : Vec Ideal S128x128 .f32 := iblk0 V c 6 t
private abbrev b3b (c : Dev nD) (t : Fin cfg0.N) : Vec Ideal S1x128 .f32 := iblk0 V c 7 t

/-- The block indices of the ten windows at every point: the row-blocked windows sit at the point's number, the weights
    and biases at zero, the accumulator at the point's half. -/
private theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 3) = t.val / 10 ∧ win0_9.index t (1 : Fin 3) = 0 ∧ win0_9.index t (2 : Fin 3) = 0 :=
  (by decide +kernel : ∀ t : Fin grid0.N, _)

/-- Row q of the feature block at point t is row 5000 t + q of the feature array. -/
private theorem xb_apply (c : Dev nD) (t : Fin cfg0.N) (q : Fin 5000) (k : Fin 64) (hr : 5000 * t.val + q.val < 100000) :
    xb V c t (ix2 q k) = X0 V c (ix2 ⟨5000 * t.val + q.val, hr⟩ k) := by
  obtain ⟨e0, e1, -⟩ := idx0 t
  unfold xb iblk0
  rw [View.read_apply]
  show V c main_arg0 _ = V c main_arg0 _
  congr 1
  funext a
  apply Fin.ext
  match a with
  | ⟨0, _⟩ => show win0_0.index t (0 : Fin 2) * 5000 + 1 * q.val = 5000 * t.val + q.val; rw [e0]; omega
  | ⟨1, _⟩ => show win0_0.index t (1 : Fin 2) * 64 + 1 * k.val = k.val; rw [e1]; omega

private theorem ab_apply (c : Dev nD) (t : Fin cfg0.N) (q : Fin 5000) (k : Fin 64) (hr : 5000 * t.val + q.val < 100000) :
    ab V c t (ix2 q k) = A0 V c (ix2 ⟨5000 * t.val + q.val, hr⟩ k) := by
  obtain ⟨-, -, e0, e1, -⟩ := idx0 t
  unfold ab iblk0
  rw [View.read_apply]
  show V c main_v13 _ = V c main_v13 _
  congr 1
  funext a
  apply Fin.ext
  match a with
  | ⟨0, _⟩ => show win0_1.index t (0 : Fin 2) * 5000 + 1 * q.val = 5000 * t.val + q.val; rw [e0]; omega
  | ⟨1, _⟩ => show win0_1.index t (1 : Fin 2) * 64 + 1 * k.val = k.val; rw [e1]; omega

private theorem w1b_eq (c : Dev nD) (t : Fin cfg0.N) : w1b V c t = W10 V c := by
  obtain ⟨-, -, -, -, e0, e1, -, -, -, -, -, -, -, -, -, -, -, -, -, -, -, -, -⟩ := idx0 t
  funext y
  unfold w1b iblk0
  rw [View.read_apply]
  show V c main_arg3 _ = V c main_arg3 _
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

private theorem b1b_eq (c : Dev nD) (t : Fin cfg0.N) : b1b V c t = B10 V c := by
  obtain ⟨-, -, -, -, -, -, e0, e1, -, -, -, -, -, -, -, -, -, -, -, -, -, -, -⟩ := idx0 t
  funext y
  unfold b1b iblk0
  rw [View.read_apply]
  show V c main_v14 _ = V c main_v14 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

private theorem w2b_eq (c : Dev nD) (t : Fin cfg0.N) : w2b V c t = W20 V c := by
  obtain ⟨-, -, -, -, -, -, -, -, e0, e1, -, -, -, -, -, -, -, -, -, -, -, -, -⟩ := idx0 t
  funext y
  unfold w2b iblk0
  rw [View.read_apply]
  show V c main_arg5 _ = V c main_arg5 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

private theorem b2b_eq (c : Dev nD) (t : Fin cfg0.N) : b2b V c t = B20 V c := by
  obtain ⟨-, -, -, -, -, -, -, -, -, -, e0, e1, -, -, -, -, -, -, -, -, -, -, -⟩ := idx0 t
  funext y
  unfold b2b iblk0
  rw [View.read_apply]
  show V c main_v15 _ = V c main_v15 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

private theorem w3b_eq (c : Dev nD) (t : Fin cfg0.N) : w3b V c t = W30 V c := by
  obtain ⟨-, -, -, -, -, -, -, -, -, -, -, -, e0, e1, -, -, -, -, -, -, -, -, -⟩ := idx0 t
  funext y
  unfold w3b iblk0
  rw [View.read_apply]
  show V c main_arg7 _ = V c main_arg7 _
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

private theorem b3b_eq (c : Dev nD) (t : Fin cfg0.N) : b3b V c t = B30 V c := by
  obtain ⟨-, -, -, -, -, -, -, -, -, -, -, -, -, -, e0, e1, -, -, -, -, -, -, -⟩ := idx0 t
  funext y
  unfold b3b iblk0
  rw [View.read_apply]
  show V c main_v16 _ = V c main_v16 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- The three stages on the row block of a point. -/
private def hb (c : Dev nD) (t : Fin cfg0.N) : Vec Ideal S5000x128 .f32 :=
  k0_pay3 (F := Ideal) (xb V c t) (ab V c t) (w1b V c t) (b1b V c t) (w2b V c t) (b2b V c t) (w3b V c t) (b3b V c t)

/-- Row q of the block of a point is row 5000 t + q of the whole result: a dense stage reads only its own row. -/
private theorem hb_apply (c : Dev nD) (t : Fin cfg0.N) (q : Fin 5000) (j : Fin 128) (hr : 5000 * t.val + q.val < 100000) :
    hb V c t (ix2 q j) = H0 V c (ix2 ⟨5000 * t.val + q.val, hr⟩ j) := by
  unfold hb H0
  rw [k0_pay3_eq, w1b_eq, b1b_eq, w2b_eq, b2b_eq, w3b_eq, b3b_eq]
  exact Cert.Gin.mlp_row (xb V c t) (ab V c t) (X0 V c) (A0 V c) (W10 V c) (Cert.Mlp.row (B10 V c)) (W20 V c) (Cert.Mlp.row (B20 V c))
    (W30 V c) (Cert.Mlp.row (B30 V c)) q ⟨5000 * t.val + q.val, hr⟩ j (fun k => xb_apply V c t q k hr) (fun k => ab_apply V c t q k hr)

/-- The column sum of the block of a point is the point's block sum of the whole result's rows. -/
private theorem blk_sum (c : Dev nD) (t : Fin cfg0.N) (j : Fin 128) :
    ∑ q : Fin 5000, hb V c t (ix2 q j) = Cert.Gin.blockSum (fun r => Cert.Gin.rowN (H0 V c) r j) t.val := by
  have hN : cfg0.N = 20 := N_0
  unfold Cert.Gin.blockSum
  rw [← Fin.sum_univ_eq_sum_range (fun q => Cert.Gin.rowN (H0 V c) (5000 * t.val + q) j) 5000]
  refine Finset.sum_congr rfl fun q _ => ?_
  have hr : 5000 * t.val + q.val < 100000 := by have := t.isLt; have := q.isLt; omega
  rw [hb_apply V c t q j hr]
  unfold Cert.Gin.rowN
  rw [dif_pos hr]

/-- After every point the first result's buffer holds the three stages of the point's row block. -/
private theorem outs_fst (c : Dev nD) (n : ℕ) (h : n < cfg0.N) : (outsAt0 V c n h).1 = hb V c ⟨n, h⟩ := by
  by_cases h0 : (⟨n, h⟩ : Fin cfg0.N).val % 10 = 0
  · rw [outsAt0_A V c ⟨n, h⟩ h0]
    dsimp only
    exact out0_A_8_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) ((hcond0_0 ⟨n, h⟩).mpr h0) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩) (iblk0 V c 7 ⟨n, h⟩)
  · rw [outsAt0_B V c ⟨n, h⟩ h0]
    dsimp only
    exact out0_B_8_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (fun hh => h0 ((hcond0_0 ⟨n, h⟩).mp hh)) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩) (iblk0 V c 7 ⟨n, h⟩) (outsAt0 V c ((⟨n, h⟩ : Fin cfg0.N).val - 1) (Nat.lt_of_le_of_lt (Nat.sub_le _ _) (⟨n, h⟩ : Fin cfg0.N).isLt)).2

/-- After every point the accumulator's buffer holds, in each column, the periodic accumulation of the block sums. -/
private theorem outs_snd (c : Dev nD) (j : Fin 128) : ∀ (n : ℕ) (h : n < cfg0.N),
    (outsAt0 V c n h).2 (ix3 0 0 j)
      = Cert.Gin.acc (fun t => Cert.Gin.blockSum (fun r => Cert.Gin.rowN (H0 V c) r j) t) n
  | 0, h => by
    rw [outsAt0_A V c ⟨0, h⟩ rfl]
    dsimp only
    refine (congrFun (out0_A_9_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) (iblk0 V c 7 ⟨0, h⟩)) (ix3 0 0 j)).trans ?_
    rw [k0_pay1_apply, k0_pay2_apply]
    unfold Cert.Gin.acc
    exact congrArg (fun s => Cert.Gin.zero + s) (blk_sum V c ⟨0, h⟩ j)
  | n + 1, h => by
    by_cases h0 : (⟨n + 1, h⟩ : Fin cfg0.N).val % 10 = 0
    · rw [outsAt0_A V c ⟨n + 1, h⟩ h0]
      dsimp only
      refine (congrFun (out0_A_9_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) ((hcond0_0 ⟨n + 1, h⟩).mpr h0) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩)) (ix3 0 0 j)).trans ?_
      rw [k0_pay1_apply, k0_pay2_apply]
      unfold Cert.Gin.acc
      rw [if_pos h0]
      exact congrArg (fun s => Cert.Gin.zero + s) (blk_sum V c ⟨n + 1, h⟩ j)
    · rw [outsAt0_B V c ⟨n + 1, h⟩ h0]
      dsimp only
      refine (congrFun (out0_B_9_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (fun hh => h0 ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩) (outsAt0 V c ((⟨n + 1, h⟩ : Fin cfg0.N).val - 1) (Nat.lt_of_le_of_lt (Nat.sub_le _ _) (⟨n + 1, h⟩ : Fin cfg0.N).isLt)).2) (ix3 0 0 j)).trans ?_
      rw [k0_pay1_apply]
      unfold Cert.Gin.acc
      rw [if_neg h0]
      show (outsAt0 V c n _).2 (ix3 0 0 j) + _ = _
      rw [outs_snd c j n (Nat.lt_of_succ_lt h)]
      exact congrArg (fun s => Cert.Gin.acc (fun t => Cert.Gin.blockSum (fun r => Cert.Gin.rowN (H0 V c) r j) t) n + s) (blk_sum V c ⟨n + 1, h⟩ j)

/-- What every point writes back to the first result is its row block of the three stages of every row. -/
private theorem flushed8 (c : Dev nD) (t : Fin cfg0.N) (hf : (cfg0.win 8).flush t = true) :
    (dat0 V c).flushed 8 t = ((cfg0.win 8).blk t).view.read (Elt Ideal) (H0 V c) := by
  have hN : cfg0.N = 20 := N_0
  obtain ⟨-, -, -, -, -, -, -, -, -, -, -, -, -, -, -, -, e0, e1, -⟩ := idx0 t
  show (cfg0.win 8).cut (grid0.coords t) ((dat0 V c).after 8 t) = _
  rw [after0_8, outs_fst]
  funext y
  rw [View.read_apply]
  show hb V c t y = H0 V c (((cfg0.win 8).blk t).view.emb y)
  have hy0 : (y 0).val < 5000 := (y 0).isLt
  have hr : 5000 * t.val + (y 0).val < 100000 := by have := t.isLt; omega
  have ey : (y : S5000x128.Idx) = ix2 (y 0) (y 1) := eq_ix2 (n0 := 5000) (n1 := 128) y
  refine (congrArg (hb V c t) ey).trans ((hb_apply V c t (y 0) (y 1) hr).trans ?_)
  congr 1
  funext a
  apply Fin.ext
  match a with
  | ⟨0, _⟩ => show 5000 * t.val + (y 0).val = win0_8.index t (0 : Fin 2) * 5000 + 1 * (y 0).val; rw [e0]; omega
  | ⟨1, _⟩ => show (y 1).val = win0_8.index t (1 : Fin 2) * 128 + 1 * (y 1).val; rw [e1]; omega

/-- Region 0's first result array ends holding the three stages of every row. -/
theorem reg0_h (c : Dev nD) : (dat0 V c).arrAt 8 cfg0.N = H0 V c := by
  have hN : cfg0.N = 20 := N_0
  refine (dat0 V c).arrAt_eq_of_cover 8 (H0 V c) (flushed8 V c) fun (i : S100000x128.Idx) => ?_
  have hi0 : (i 0).val < 100000 := (i 0).isLt
  have hi1 : (i 1).val < 128 := (i 1).isLt
  have ht : (i 0).val / 5000 < cfg0.N := by omega
  refine ⟨⟨(i 0).val / 5000, ht⟩, flush0_8 _, ?_⟩
  obtain ⟨-, -, -, -, -, -, -, -, -, -, -, -, -, -, -, -, e0, e1, -⟩ := idx0 ⟨(i 0).val / 5000, ht⟩
  show i ∈ ((View.whole main_v18_0).slice (win0_8.rect ⟨(i 0).val / 5000, ht⟩)).set
  rw [View.set_slice_whole, Rect.mem_set_unit]
  intro a
  match a with
  | ⟨0, _⟩ =>
    show win0_8.index ⟨(i 0).val / 5000, ht⟩ (0 : Fin 2) * 5000 ≤ (i 0).val ∧ (i 0).val < win0_8.index ⟨(i 0).val / 5000, ht⟩ (0 : Fin 2) * 5000 + 5000
    rw [e0]; dsimp only; omega
  | ⟨1, _⟩ =>
    show win0_8.index ⟨(i 0).val / 5000, ht⟩ (1 : Fin 2) * 128 ≤ (i 1).val ∧ (i 1).val < win0_8.index ⟨(i 0).val / 5000, ht⟩ (1 : Fin 2) * 128 + 128
    rw [e1]; omega

/-- What the accumulator's array holds where a half's last point wrote it: the half's accumulated column sum. -/
private def G9 (c : Dev nD) : S2x1x128.Idx → EReal := fun i =>
  Cert.Gin.shardSum (fun r => Cert.Gin.rowN (H0 V c) r (i 2)) (i 0).val

/-- The last point of each half writes back the half's accumulated column sums. -/
private theorem flushed9 (c : Dev nD) (t : Fin cfg0.N) (hf : (cfg0.win 9).flush t = true) :
    (dat0 V c).flushed 9 t = ((cfg0.win 9).blk t).view.read (Elt Ideal) (G9 V c) := by
  have hN : cfg0.N = 20 := N_0
  have h9 : t.val % 10 = 9 := (flush0_9 t).mp hf
  obtain ⟨-, -, -, -, -, -, -, -, -, -, -, -, -, -, -, -, -, -, e0, e1, e2⟩ := idx0 t
  show (cfg0.win 9).cut (grid0.coords t) ((dat0 V c).after 9 t) = _
  rw [after0_9]
  funext y
  rw [View.read_apply]
  show (outsAt0 V c t.val t.isLt).2 y = G9 V c (((cfg0.win 9).blk t).view.emb y)
  have hy0 : (y 0).val < 1 := (y 0).isLt
  have hy1 : (y 1).val < 1 := (y 1).isLt
  have ey : (y : S1x1x128.Idx) = ix3 (0 : Fin 1) (0 : Fin 1) (y 2) := by
    funext a
    match a with
    | ⟨0, _⟩ => exact Fin.ext (by show (y 0).val = 0; omega)
    | ⟨1, _⟩ => exact Fin.ext (by show (y 1).val = 0; omega)
    | ⟨2, _⟩ => rfl
  have hs : t.val / 10 < 2 := by have := t.isLt; omega
  have eemb : (((cfg0.win 9).blk t).view.emb y : S2x1x128.Idx) = ix3 (⟨t.val / 10, hs⟩ : Fin 2) (0 : Fin 1) (y 2) := by
    funext a
    apply Fin.ext
    match a with
    | ⟨0, _⟩ => show win0_9.index t (0 : Fin 3) * 1 + 1 * (y 0).val = t.val / 10; rw [e0]; omega
    | ⟨1, _⟩ => show win0_9.index t (1 : Fin 3) * 1 + 1 * (y 1).val = 0; rw [e1]; omega
    | ⟨2, _⟩ => show win0_9.index t (2 : Fin 3) * 128 + 1 * (y 2).val = (y 2).val; rw [e2]; omega
  refine (congrArg (outsAt0 V c t.val t.isLt).2 ey).trans ((outs_snd V c (y 2) t.val t.isLt).trans ?_)
  refine Eq.trans ?_ (congrArg (G9 V c) eemb).symm
  show _ = Cert.Gin.shardSum (fun r => Cert.Gin.rowN (H0 V c) r (y 2)) (t.val / 10)
  have ht : 10 * (t.val / 10) + 9 = t.val := by omega
  unfold Cert.Gin.shardSum
  rw [← Cert.Gin.acc_last, ht]

/-- Region 0's second result array ends holding, per half, zero plus the half's ten block sums of each column. -/
theorem reg0_sum (c : Dev nD) (s : Fin 2) (j : Fin 128) :
    (dat0 V c).arrAt 9 cfg0.N (ix3 s 0 j) = Cert.Gin.shardSum (fun r => Cert.Gin.rowN (H0 V c) r j) s.val := by
  have hN : cfg0.N = 20 := N_0
  have hs : s.val < 2 := s.isLt
  have hj : j.val < 128 := j.isLt
  have ht : 10 * s.val + 9 < cfg0.N := by omega
  have hf : (cfg0.win 9).flush ⟨10 * s.val + 9, ht⟩ = true :=
    (flush0_9 ⟨10 * s.val + 9, ht⟩).mpr (by show (10 * s.val + 9) % 10 = 9; omega)
  obtain ⟨-, -, -, -, -, -, -, -, -, -, -, -, -, -, -, -, -, -, e0, e1, e2⟩ := idx0 ⟨10 * s.val + 9, ht⟩
  refine ((dat0 V c).arrAt_apply_of_mem 9 (G9 V c) (flushed9 V c) cfg0.N ⟨10 * s.val + 9, ht⟩ (ix3 s 0 j) ht hf ?_).trans rfl
  show (ix3 s (0 : Fin 1) j : S2x1x128.Idx) ∈ ((View.whole main_v18_1).slice (win0_9.rect ⟨10 * s.val + 9, ht⟩)).set
  rw [View.set_slice_whole, Rect.mem_set_unit]
  intro a
  match a with
  | ⟨0, _⟩ =>
    show win0_9.index ⟨10 * s.val + 9, ht⟩ (0 : Fin 3) * 1 ≤ s.val ∧ s.val < win0_9.index ⟨10 * s.val + 9, ht⟩ (0 : Fin 3) * 1 + 1
    rw [e0]; dsimp only; omega
  | ⟨1, _⟩ =>
    show win0_9.index ⟨10 * s.val + 9, ht⟩ (1 : Fin 3) * 1 ≤ 0 ∧ 0 < win0_9.index ⟨10 * s.val + 9, ht⟩ (1 : Fin 3) * 1 + 1
    rw [e1]; omega
  | ⟨2, _⟩ =>
    show win0_9.index ⟨10 * s.val + 9, ht⟩ (2 : Fin 3) * 128 ≤ j.val ∧ j.val < win0_9.index ⟨10 * s.val + 9, ht⟩ (2 : Fin 3) * 128 + 128
    rw [e2]; omega

end Cert.KernelIdeal.Val

end
-- ==== Proof.KReg1.lean ====
/-
  Region 1: what the second kernel leaves in its result array, as a function of the arrays it is entered with.
-/
import proofs.«421296_j1039382085872_3_alg».proof.Proof.Gen.KernelIdeal.Frame
import proofs.«421296_j1039382085872_3_alg».proof.Proof.Spec
import proofs.«421296_j1039382085872_3_alg».proof.Proof.KPay0
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The arrays region 1 is entered with, at their literal types: the per-node features and the one-row column means. -/
abbrev Hin1 (c : Dev nD) : Vec Ideal S100000x128 .f32 := V c main_v18_0
abbrev Min1 (c : Dev nD) : Vec Ideal S1x128 .f32 := V c main_v26

private theorem hz3 : (![0, 0, 0] : Fin 3 → Nat) = fun _ => 0 := funext fun a => by fin_cases a <;> rfl
private theorem hz2 : (![0, 0] : Fin 2 → Nat) = fun _ => 0 := funext fun a => by fin_cases a <;> rfl

/-- At a point that does not start a period, the body leaves in the accumulator's buffer the update of what it held. -/
private theorem out_B (c : Dev nD) (i : grid1.Coords) (a2 : Memref sig .tc .vmem S5000x128 .f32) (h2 : a2.IsWhole)
    (a3 : Memref sig .tc .vmem S1x128 .f32) (h3 : a3.IsWhole) (a4 : Memref sig .tc .vmem S1x1x128 .f32) (h4 : a4.IsWhole)
    (hc : ¬cond1_0 i) (x0 : Vec Ideal S5000x128 .f32) (x1 : Vec Ideal S1x128 .f32) (xo : Vec Ideal S1x1x128 .f32) :
    out1_B_2 (F := Ideal) c i a2 h2 a3 h3 a4 h4 hc x0 x1 xo = k1_pay2 (F := Ideal) x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz3]
  simp only [View.readAt_eq_ld, h2.read_unread, h3.read_unread, h4.read_unread, View.ld_unit_zero (S := S5000x128) hz2,
    View.ld_unit_zero (S := S1x128) hz2, View.ld_unit_zero (S := S1x1x128) hz3]

/-- At a point that starts a period, the body stores zero, reads it back and leaves its update. -/
private theorem out_A (c : Dev nD) (i : grid1.Coords) (a2 : Memref sig .tc .vmem S5000x128 .f32) (h2 : a2.IsWhole)
    (a3 : Memref sig .tc .vmem S1x128 .f32) (h3 : a3.IsWhole) (a4 : Memref sig .tc .vmem S1x1x128 .f32) (h4 : a4.IsWhole)
    (hc : cond1_0 i) (x0 : Vec Ideal S5000x128 .f32) (x1 : Vec Ideal S1x128 .f32) :
    out1_A_2 (F := Ideal) c i a2 h2 a3 h3 a4 h4 hc x0 x1 = k1_pay2 (F := Ideal) x0 x1 (k1_pay1 (F := Ideal)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S5000x128) hz2,
    View.ld_unit_zero (S := S1x128) hz2, View.ld_unit_zero (S := S1x1x128) hz3]

/-- The two input windows' blocks at a point, at their literal types. -/
private abbrev Hblk1 (c : Dev nD) (t : Fin cfg1.N) : Vec Ideal S5000x128 .f32 := iblk1 V c 0 t
private abbrev Mblk1 (c : Dev nD) (t : Fin cfg1.N) : Vec Ideal S1x128 .f32 := iblk1 V c 1 t

/-- The windows' block indices over the grid: the features' window moves down one block of rows per point, the mean's
    stays, the accumulator's first coordinate is the half. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 3) = t.val / 10 ∧ win1_2.index t (1 : Fin 3) = 0 ∧ win1_2.index t (2 : Fin 3) = 0 :=
  (by decide +kernel : ∀ t : Fin grid1.N,
    win1_0.index t (0 : Fin 2) = t.val ∧ win1_0.index t (1 : Fin 2) = 0
    ∧ win1_1.index t (0 : Fin 2) = 0 ∧ win1_1.index t (1 : Fin 2) = 0
    ∧ win1_2.index t (0 : Fin 3) = t.val / 10 ∧ win1_2.index t (1 : Fin 3) = 0 ∧ win1_2.index t (2 : Fin 3) = 0)

/-- Row q of the features' block at point t is row 5000 t + q of the features. -/
private theorem Hblk_apply (c : Dev nD) (t : Fin cfg1.N) (q : Fin 5000) (j : Fin 128) (hr : 5000 * t.val + q.val < 100000) :
    Hblk1 V c t (ix2 q j) = Hin1 V c (ix2 ⟨5000 * t.val + q.val, hr⟩ j) := by
  unfold Hblk1 iblk1
  rw [View.read_apply]
  show V c main_v18_0 _ = V c main_v18_0 _
  congr 1
  funext a
  apply Fin.ext
  match a with
  | ⟨0, _⟩ => show win1_0.index t 0 * 5000 + 1 * q.val = 5000 * t.val + q.val; rw [(idx_facts t).1]; omega
  | ⟨1, _⟩ => show win1_0.index t 1 * 128 + 1 * j.val = j.val; rw [(idx_facts t).2.1]; omega

/-- The mean's block at every point is the mean. -/
private theorem Mblk_apply (c : Dev nD) (t : Fin cfg1.N) (j : Fin 128) :
    Mblk1 V c t (ix2 0 j) = Min1 V c (ix2 0 j) := by
  unfold Mblk1 iblk1
  rw [View.read_apply]
  show V c main_v26 _ = V c main_v26 _
  congr 1
  funext a
  apply Fin.ext
  match a with
  | ⟨0, _⟩ => show win1_1.index t 0 * 1 + 1 * 0 = 0; rw [(idx_facts t).2.2.1]
  | ⟨1, _⟩ => show win1_1.index t 1 * 128 + 1 * j.val = j.val; rw [(idx_facts t).2.2.2.1]; omega

/-- Column j's squared deviations from the mean, row by row. -/
private abbrev dev1 (c : Dev nD) (j : Fin 128) : ℕ → EReal :=
  fun r => Cert.Gin.sqdev (Cert.Gin.rowN (Hin1 V c) r j) (Min1 V c (ix2 0 j))

/-- The block's column sum of squared deviations is the block sum of the column's. -/
private theorem blk_sum (c : Dev nD) (t : Fin cfg1.N) (j : Fin 128) :
    ∑ q : Fin 5000, Cert.Gin.sqdev (Hblk1 V c t (ix2 q j)) (Mblk1 V c t (ix2 0 j)) = Cert.Gin.blockSum (dev1 V c j) t.val := by
  have hN : t.val < 20 := lt_of_lt_of_eq t.isLt (show cfg1.N = 20 from N_1)
  unfold Cert.Gin.blockSum
  rw [Finset.sum_range]
  refine Finset.sum_congr rfl fun q _ => ?_
  have hr : 5000 * t.val + q.val < 100000 := by have := q.isLt; omega
  rw [Hblk_apply V c t q j hr, Mblk_apply V c t j]
  show _ = Cert.Gin.sqdev (Cert.Gin.rowN (Hin1 V c) (5000 * t.val + q.val) j) _
  unfold Cert.Gin.rowN
  rw [dif_pos hr]

/-- A point that starts a period leaves zero plus its block's sum. -/
private theorem outs_A (c : Dev nD) (j : Fin 128) (t : Fin cfg1.N) (h0 : t.val % 10 = 0) :
    outsAt1 V c t.val t.isLt (ix3 0 0 j) = Cert.Gin.zero + Cert.Gin.blockSum (dev1 V c j) t.val := by
  rw [outsAt1_A V c t h0]
  refine (congrFun (out_A c (grid1.coords t) (ms1_0 t) (hs1_0 t) (ms1_1 t) (hs1_1 t) (ms1_2 t) (hs1_2 t)
    ((hcond1_0 t).mpr h0) (Hblk1 V c t) (Mblk1 V c t)) (ix3 0 0 j)).trans ?_
  rw [k1_pay2_apply, k1_pay1_apply, blk_sum]

/-- Any other point adds its block's sum to what the point before left. -/
private theorem outs_B (c : Dev nD) (j : Fin 128) (t : Fin cfg1.N) (h0 : ¬t.val % 10 = 0) :
    outsAt1 V c t.val t.isLt (ix3 0 0 j)
      = outsAt1 V c (t.val - 1) (Nat.lt_of_le_of_lt (Nat.sub_le _ _) t.isLt) (ix3 0 0 j) + Cert.Gin.blockSum (dev1 V c j) t.val := by
  rw [outsAt1_B V c t h0]
  refine (congrFun (out_B c (grid1.coords t) (ms1_0 t) (hs1_0 t) (ms1_1 t) (hs1_1 t) (ms1_2 t) (hs1_2 t)
    (fun h => h0 ((hcond1_0 t).mp h)) (Hblk1 V c t) (Mblk1 V c t)
    (outsAt1 V c (t.val - 1) (Nat.lt_of_le_of_lt (Nat.sub_le _ _) t.isLt))) (ix3 0 0 j)).trans ?_
  rw [k1_pay2_apply, blk_sum]

/-- After every point the accumulator's buffer holds the periodic accumulation of the block sums. -/
private theorem outs_eq (c : Dev nD) (j : Fin 128) : ∀ (n : ℕ) (h : n < cfg1.N),
    outsAt1 V c n h (ix3 0 0 j) = Cert.Gin.acc (Cert.Gin.blockSum (dev1 V c j)) n
  | 0, h => by
    rw [outs_A V c j ⟨0, h⟩ rfl]
    rfl
  | n + 1, h => by
    by_cases h0 : (n + 1) % 10 = 0
    · rw [outs_A V c j ⟨n + 1, h⟩ h0, Cert.Gin.acc, if_pos h0]
    · rw [outs_B V c j ⟨n + 1, h⟩ h0, Cert.Gin.acc, if_neg h0]
      show outsAt1 V c n _ (ix3 0 0 j) + _ = _
      rw [outs_eq c j n]

/-- What the result array ends holding: per half and column, the half's sum of the column's squared deviations. -/
private abbrev Gout1 (c : Dev nD) : Vec Ideal S2x1x128 .f32 :=
  fun i => Cert.Gin.shardSum (dev1 V c (i 2)) (i 0).val

/-- At the last point of a half the accumulator's buffer is written back: it is the half's block of the sums. -/
private theorem flushed_eq (c : Dev nD) (t : Fin cfg1.N) (hf : (cfg1.win 2).flush t = true) :
    (dat1 V c).flushed 2 t = ((cfg1.win 2).blk t).view.read (Elt Ideal) (Gout1 V c) := by
  have hN : t.val < 20 := lt_of_lt_of_eq t.isLt (show cfg1.N = 20 from N_1)
  have h9 : t.val % 10 = 9 := (flush1_2 t).mp hf
  show (cfg1.win 2).cut (grid1.coords t) ((dat1 V c).after 2 t) = _
  rw [after1_2]
  funext y
  rw [View.read_apply]
  have y0 : (y 0).val < 1 := (y 0).isLt
  have y1 : (y 1).val < 1 := (y 1).isLt
  have hy : win1_2.xinj (grid1.coords t) y = ix3 (n0 := 1) (n1 := 1) (n2 := 128) 0 0 (y 2) := by
    funext a
    apply Fin.ext
    match a with
    | ⟨0, _⟩ => show (y 0).val = 0; omega
    | ⟨1, _⟩ => show (y 1).val = 0; omega
    | ⟨2, _⟩ => rfl
  show outsAt1 V c t.val t.isLt (win1_2.xinj (grid1.coords t) y) = _
  rw [hy, outs_eq V c (y 2) t.val t.isLt]
  have e2 : ((((cfg1.win 2).blk t).view.emb y) 2 : Fin 128) = (y 2 : Fin 128) :=
    Fin.ext (by show win1_2.index t 2 * 128 + 1 * (y 2).val = (y 2).val; rw [(idx_facts t).2.2.2.2.2.2]; omega)
  have e0 : ((((cfg1.win 2).blk t).view.emb y) 0).val = t.val / 10 := by
    show win1_2.index t 0 * 1 + 1 * (y 0).val = t.val / 10
    rw [(idx_facts t).2.2.2.2.1]; omega
  show _ = Cert.Gin.shardSum (dev1 V c ((((cfg1.win 2).blk t).view.emb y) 2)) ((((cfg1.win 2).blk t).view.emb y) 0).val
  rw [e2, e0]
  have ht : t.val = 10 * (t.val / 10) + 9 := by omega
  rw [ht, Cert.Gin.acc_last]
  have hd : (10 * (t.val / 10) + 9) / 10 = t.val / 10 := by omega
  rw [hd]
  rfl

/-- Region 1's result array ends holding, per half, zero plus the half's ten block sums of each column's squared
    deviations from the given mean. -/
theorem reg1_sum (c : Dev nD) (s : Fin 2) (j : Fin 128) :
    (dat1 V c).arrAt 2 cfg1.N (ix3 s 0 j)
      = Cert.Gin.shardSum (fun r => Cert.Gin.sqdev (Cert.Gin.rowN (Hin1 V c) r j) (Min1 V c (ix2 0 j))) s.val := by
  have hN : cfg1.N = 20 := N_1
  have hs : s.val < 2 := s.isLt
  have ht : 10 * s.val + 9 < cfg1.N := by rw [hN]; omega
  have hf : (cfg1.win 2).flush ⟨10 * s.val + 9, ht⟩ = true := (flush1_2 ⟨10 * s.val + 9, ht⟩).mpr (by show (10 * s.val + 9) % 10 = 9; omega)
  have hm : (ix3 s 0 j : S2x1x128.Idx) ∈ ((cfg1.win 2).blk ⟨10 * s.val + 9, ht⟩).view.set := by
    show _ ∈ ((View.whole main_v27).slice (win1_2.rect ⟨10 * s.val + 9, ht⟩)).set
    rw [View.set_slice_whole, Rect.mem_set_unit]
    intro a
    have hj : j.val < 128 := j.isLt
    have hi := idx_facts ⟨10 * s.val + 9, ht⟩
    have hd : (10 * s.val + 9) / 10 = s.val := by omega
    match a with
    | ⟨0, _⟩ =>
      show win1_2.index ⟨10 * s.val + 9, ht⟩ 0 * 1 ≤ s.val ∧ s.val < win1_2.index ⟨10 * s.val + 9, ht⟩ 0 * 1 + 1
      rw [hi.2.2.2.2.1]; show (10 * s.val + 9) / 10 * 1 ≤ s.val ∧ s.val < (10 * s.val + 9) / 10 * 1 + 1; rw [hd]; omega
    | ⟨1, _⟩ =>
      show win1_2.index ⟨10 * s.val + 9, ht⟩ 1 * 1 ≤ 0 ∧ 0 < win1_2.index ⟨10 * s.val + 9, ht⟩ 1 * 1 + 1
      rw [hi.2.2.2.2.2.1]; omega
    | ⟨2, _⟩ =>
      show win1_2.index ⟨10 * s.val + 9, ht⟩ 2 * 128 ≤ j.val ∧ j.val < win1_2.index ⟨10 * s.val + 9, ht⟩ 2 * 128 + 128
      rw [hi.2.2.2.2.2.2]; omega
  exact (dat1 V c).arrAt_apply_of_mem 2 (Gout1 V c) (flushed_eq V c) cfg1.N ⟨10 * s.val + 9, ht⟩ (ix3 s 0 j) ht hf hm

end Cert.KernelIdeal.Val

end
-- ==== Proof.KPay2.lean ====
/-
  The arithmetic of the third kernel's body on the extended reals, read index by index: each row normalised, scaled and shifted, then added into the running per-graph sums through a zero-one matrix product.
-/
import proofs.«421296_j1039382085872_3_alg».proof.Proof.Gen.KernelIdeal.Skeleton
import proofs.«421296_j1039382085872_3_alg».proof.Proof.Spec
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Val

open Cert.KernelIdeal Cert.KernelIdeal.Gen

/-- The third kernel's accumulator reset stores zero. -/
theorem k2_pay1_apply (i : S1x256x128.Idx) : k2_pay1 (F := Ideal) i = Cert.Gin.zero := rfl

/-- The dimension numbers of the product: the rows of both operands contracted. -/
private abbrev D2 := dot_S5000x256_S5000x128_S256x128_0_0_1_1_n_n

/-- The left operand's row coordinate is the contraction coordinate. -/
private theorem lhs_D2_0 (j : S256x128.Idx) (k : D2.contr.Idx) :
    (D2.lhsIdx j k 0).val = (k ⟨0, by decide⟩).val :=
  DotDims.lhsIdx_val_of_single D2 (cl := 0) rfl j k

/-- The right operand's row coordinate is the contraction coordinate. -/
private theorem rhs_D2_0 (j : S256x128.Idx) (k : D2.contr.Idx) :
    (D2.rhsIdx j k 0).val = (k ⟨0, by decide⟩).val :=
  DotDims.rhsIdx_val_of_single D2 (cr := 0) rfl j k

/-- The left operand's column coordinate is the result's row coordinate. -/
private theorem lhs_D2_1 (j : S256x128.Idx) (k : D2.contr.Idx) :
    (D2.lhsIdx j k 1).val = (j 0).val := by
  unfold DotDims.lhsIdx
  rw [dif_neg (show ¬(1 : Fin S5000x256.rank) ∈ D2.lhsBatch by decide),
    dif_pos (show (1 : Fin S5000x256.rank) ∈ D2.lhsNonContracting by decide)]
  rfl

/-- The right operand's column coordinate is the result's column coordinate. -/
private theorem rhs_D2_1 (j : S256x128.Idx) (k : D2.contr.Idx) :
    (D2.rhsIdx j k 1).val = (j 1).val := by
  unfold DotDims.rhsIdx
  rw [dif_neg (show ¬(1 : Fin S5000x128.rank) ∈ D2.rhsBatch by decide),
    dif_pos (show (1 : Fin S5000x128.rank) ∈ D2.rhsNonContracting by decide)]
  rfl

/-- The contraction over the rows of both operands is a sum over the 5000 rows. -/
private theorem rows_sum (l : S5000x256.Idx → EReal) (r : S5000x128.Idx → EReal) (g : Fin 256) (j : Fin 128) :
    (∑ k : D2.contr.Idx, l (D2.lhsIdx (ix2 g j) k) * r (D2.rhsIdx (ix2 g j) k))
      = ∑ q : Fin 5000, l (ix2 q g) * r (ix2 q j) := by
  refine (Equiv.sum_comp (contrEquiv1 D2 5000 rfl rfl).symm _).symm.trans (Finset.sum_congr rfl fun q _ => ?_)
  have hk : (((contrEquiv1 D2 5000 rfl rfl).symm q) ⟨0, by decide⟩ : ℕ) = q.val := contrEquiv1_symm_val D2 5000 rfl rfl q
  have hl : D2.lhsIdx (ix2 g j) ((contrEquiv1 D2 5000 rfl rfl).symm q) = ix2 q g := by
    funext a; apply Fin.ext
    match a with
    | ⟨0, _⟩ => exact (lhs_D2_0 _ _).trans hk
    | ⟨1, _⟩ => exact lhs_D2_1 _ _
  have hr : D2.rhsIdx (ix2 g j) ((contrEquiv1 D2 5000 rfl rfl).symm q) = ix2 q j := by
    funext a; apply Fin.ext
    match a with
    | ⟨0, _⟩ => exact (rhs_D2_0 _ _).trans hk
    | ⟨1, _⟩ => exact rhs_D2_1 _ _
  exact congrArg₂ (fun x y => l x * r y) hl hr

/-- A column broadcast along the rows, read at (p, q), is the column's entry p. -/
private theorem bcast_col (x : S5000x1.Idx → BitVec 32) (p : Fin 5000) (q : Fin 256) :
    broadcastTo S5000x256 x broadcasts_S5000x1_S5000x256 (ix2 p q) = x (ix2 p 0) := by
  refine broadcastTo_apply x broadcasts_S5000x1_S5000x256 (ix2 p q) (ix2 p 0) fun a => ?_
  match a with
  | ⟨0, _⟩ => rfl
  | ⟨1, _⟩ => rfl

/-- A word compared for equality with g, the one-bit answer widened and read as a signed integer, is the indicator. -/
private theorem hot_word (w : BitVec 32) (g : Fin 256) :
    (FloatOps.sitofp .f32 ((IntOp.cmpi .eq w (BitVec.ofNat 32 g.val)).setWidth 32) : Ideal .f32) = Cert.Gin.hot w g := by
  unfold Cert.Gin.hot
  by_cases h : w = BitVec.ofNat 32 g.val
  · rw [if_pos h]
    have : IntOp.cmpi .eq w (BitVec.ofNat 32 g.val) = 1#1 := by
      show BitVec.ofBool (w == BitVec.ofNat 32 g.val) = 1#1
      rw [beq_iff_eq.mpr h]; rfl
    rw [this]
    show (((1#1 : BitVec 1).setWidth 32).toInt : ℝ) = (1 : EReal)
    norm_num
  · rw [if_neg h]
    have : IntOp.cmpi .eq w (BitVec.ofNat 32 g.val) = 0#1 := by
      show BitVec.ofBool (w == BitVec.ofNat 32 g.val) = 0#1
      rw [beq_eq_false_iff_ne.mpr h]; rfl
    rw [this]
    show (((0#1 : BitVec 1).setWidth 32).toInt : ℝ) = (0 : EReal)
    norm_num

/-- The zero-one matrix of the comparison with the column numbers, at row q and column g, is the indicator that the
    row's graph number is g. -/
private theorem hot_entry (v24 : Vec Ideal S5000x1 .i32) (q : Fin 5000) (g : Fin 256) :
    (sitofp .f32 (extui 32 (cmpi .eq (broadcastTo S5000x256 (shapeCast S5000x1 v24 shapeCasts_S5000x1_S5000x1)
        broadcasts_S5000x1_S5000x256) (iota .tc S5000x256 32 [1] iota_S5000x256_d1_w32)) natLt_1_32)
      : FVec Ideal S5000x256 .f32) (ix2 q g) = Cert.Gin.hot (v24 (ix2 q 0)) g := by
  rw [sitofp_apply, extui_apply]
  show FloatOps.sitofp .f32 ((IntOp.cmpi .eq (broadcastTo S5000x256 (shapeCast S5000x1 v24 shapeCasts_S5000x1_S5000x1)
        broadcasts_S5000x1_S5000x256 (ix2 q g)) (iota .tc S5000x256 32 [1] iota_S5000x256_d1_w32 (ix2 q g))).setWidth 32) = _
  rw [iota_single_apply, bcast_col, shapeCast_self]
  exact hot_word (v24 (ix2 q 0)) g

/-- A row's feature normalised, scaled and shifted, at row q and column j. -/
private theorem bn_entry (v3 : Vec Ideal S1x128 .f32) (v8 : Vec Ideal S5000x128 .f32) (v10 : Vec Ideal S1x128 .f32)
    (v16 : Vec Ideal S1x128 .f32) (v20 : Vec Ideal S1x128 .f32) (q : Fin 5000) (j : Fin 128) :
    (addf (mulf (mulf (subf (shapeCast S5000x128 v8 shapeCasts_S5000x128_S5000x128)
        (broadcastTo S5000x128 (shapeCast S1x128 v10 shapeCasts_S1x128_S1x128) broadcasts_S1x128_S5000x128))
        (broadcastTo S5000x128 (rsqrt (addf (shapeCast S1x128 v3 shapeCasts_S1x128_S1x128)
          (broadcast S1x128 (Scalar.ofBits .f32 0x3727C5AC#32)))) broadcasts_S1x128_S5000x128))
        (broadcastTo S5000x128 (shapeCast S1x128 v16 shapeCasts_S1x128_S1x128) broadcasts_S1x128_S5000x128))
        (broadcastTo S5000x128 (shapeCast S1x128 v20 shapeCasts_S1x128_S1x128) broadcasts_S1x128_S5000x128)
      : FVec Ideal S5000x128 .f32) (ix2 q j)
      = Cert.Gin.bn (v8 (ix2 q j)) (v10 (ix2 0 j)) (v3 (ix2 0 j)) (v16 (ix2 0 j)) (v20 (ix2 0 j)) := by
  simp only [addf_apply, mulf_apply, subf_apply, shapeCast_self]
  rw [Cert.Mlp.bcast_row broadcasts_S1x128_S5000x128 v10 q j, Cert.Mlp.bcast_row broadcasts_S1x128_S5000x128 v16 q j,
    Cert.Mlp.bcast_row broadcasts_S1x128_S5000x128 v20 q j, Cert.Mlp.bcast_row broadcasts_S1x128_S5000x128 _ q j]
  rfl

/-- The third kernel's accumulator update at graph g, column j: the running value plus the sum over the block's rows of
    the indicator that the row's graph number is g times the row's normalised, scaled and shifted feature
    (v3 the variances, v8 the features, v10 the means, v16 the scales, v20 the shifts, v24 the graph numbers, v32 the
    running value). -/
theorem k2_pay2_apply (v3 : Vec Ideal S1x128 .f32) (v8 : Vec Ideal S5000x128 .f32) (v10 : Vec Ideal S1x128 .f32)
    (v16 : Vec Ideal S1x128 .f32) (v20 : Vec Ideal S1x128 .f32) (v24 : Vec Ideal S5000x1 .i32) (v32 : Vec Ideal S1x256x128 .f32)
    (g : Fin 256) (j : Fin 128) :
    k2_pay2 (F := Ideal) v3 v8 v10 v16 v20 v24 v32 (ix3 0 g j)
      = v32 (ix3 0 g j) + ∑ q : Fin 5000, Cert.Gin.hot (v24 (ix2 q 0)) g
          * Cert.Gin.bn (v8 (ix2 q j)) (v10 (ix2 0 j)) (v3 (ix2 0 j)) (v16 (ix2 0 j)) (v20 (ix2 0 j)) := by
  unfold k2_pay2
  rw [addf_apply, shapeCast_self]
  congr 1
  rw [shapeCast_addUnit_apply]
  have hi : (fun a : Fin 2 => (ix3 (0 : Fin 1) g j : S1x256x128.Idx) a.succ) = (ix2 g j : S256x128.Idx) := by
    funext a
    match a with
    | ⟨0, _⟩ => rfl
    | ⟨1, _⟩ => rfl
  rw [hi]
  refine (Ideal.matmul_constant_zero_apply D2 none _ _ (ix2 g j)).trans ?_
  rw [rows_sum]
  exact Finset.sum_congr rfl fun q _ => by rw [hot_entry, bn_entry]

end Cert.KernelIdeal.Val

end
-- ==== Proof.KReg2.lean ====
/-
  Region 2: what the third kernel leaves in its result array, as a function of the arrays it is entered with.
-/
import proofs.«421296_j1039382085872_3_alg».proof.Proof.Gen.KernelIdeal.Frame
import proofs.«421296_j1039382085872_3_alg».proof.Proof.Spec
import proofs.«421296_j1039382085872_3_alg».proof.Proof.KPay2
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-- The zero offsets of a rank-3 rectangle, as the constant function. -/
private theorem hz3 : (![0, 0, 0] : Fin 3 → Nat) = fun _ => 0 := funext fun a => by fin_cases a <;> rfl
/-- The zero offsets of a rank-2 rectangle, as the constant function. -/
private theorem hz2 : (![0, 0] : Fin 2 → Nat) = fun _ => 0 := funext fun a => by fin_cases a <;> rfl

/-- At a point that does not start a half the body leaves, in the accumulator's buffer holding a running value, the
    update of that value by the point's blocks. -/
private theorem out2_B (c : Dev nD) (i : grid2.Coords) (a2 : Memref sig .tc .vmem S5000x128 .f32) (h2 : a2.IsWhole)
    (a3 : Memref sig .tc .vmem S5000x1 .i32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (a8 : Memref sig .tc .vmem S1x256x128 .f32) (h8 : a8.IsWhole)
    (hc : ¬cond2_0 i) (x0 : Vec Ideal S5000x128 .f32) (x1 : Vec Ideal S5000x1 .i32) (x2 x3 x4 x5 : Vec Ideal S1x128 .f32)
    (xo : Vec Ideal S1x256x128 .f32) :
    out2_B_6 (F := Ideal) c i a2 h2 a3 h3 a4 h4 a5 h5 a6 h6 a7 h7 a8 h8 hc x0 x1 x2 x3 x4 x5 xo
      = k2_pay2 (F := Ideal) x3 x0 x2 x4 x5 x1 xo := by
  unfold out2_B_6
  rw [View.read_writes_eq_canon _ _ _ (cover2_B_6 c i a2 h2 a3 h3 a4 h4 a5 h5 a6 h6 a7 h7 a8 h8 hc x0 x1 x2 x3 x4 x5 xo)]
  unfold kernelRun2_B
  dsimp only
  sl_unfold_words
  rw [View.canon_unit_zero (S := S1x256x128) hz3]
  simp only [View.readAt_eq_ld, h2.read_unread, h3.read_unread, h4.read_unread, h5.read_unread, h6.read_unread, h7.read_unread,
    h8.read_unread, View.ld_unit_zero (S := S1x256x128) hz3, View.ld_unit_zero (S := S1x128) hz2,
    View.ld_unit_zero (S := S5000x128) hz2, View.ld_unit_zero (S := S5000x1) hz2]

/-- At a point that starts a half the body stores the zero block, reads it back, and leaves its update by the point's
    blocks. -/
private theorem out2_A (c : Dev nD) (i : grid2.Coords) (a2 : Memref sig .tc .vmem S5000x128 .f32) (h2 : a2.IsWhole)
    (a3 : Memref sig .tc .vmem S5000x1 .i32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (a8 : Memref sig .tc .vmem S1x256x128 .f32) (h8 : a8.IsWhole)
    (hc : cond2_0 i) (x0 : Vec Ideal S5000x128 .f32) (x1 : Vec Ideal S5000x1 .i32) (x2 x3 x4 x5 : Vec Ideal S1x128 .f32) :
    out2_A_6 (F := Ideal) c i a2 h2 a3 h3 a4 h4 a5 h5 a6 h6 a7 h7 a8 h8 hc x0 x1 x2 x3 x4 x5
      = k2_pay2 (F := Ideal) x3 x0 x2 x4 x5 x1 (k2_pay1 (F := Ideal)) := by
  unfold out2_A_6
  rw [View.read_writes_eq_canon _ _ _ (cover2_A_6 c i a2 h2 a3 h3 a4 h4 a5 h5 a6 h6 a7 h7 a8 h8 hc x0 x1 x2 x3 x4 x5)]
  unfold kernelRun2_A
  dsimp only
  sl_unfold_words
  rw [View.canon_cons_unit_zero (S := S1x256x128) hz3, View.readCov_unit_zero (S := S1x256x128) _ hz3]
  simp only [View.readAt_eq_ld, h2.read_unread, h3.read_unread, h4.read_unread, h5.read_unread, h6.read_unread, h7.read_unread,
    View.ld_unit_zero (S := S1x128) hz2,
    View.ld_unit_zero (S := S5000x128) hz2, View.ld_unit_zero (S := S5000x1) hz2]

variable (V : (c : Dev nD) → (b : Ref sig .tc) → Buf (Elt Ideal) ((c : Thread nD τ).loc b))

/-- The arrays region 2 is entered with, at their literal types: the per-node features, the nodes' graph numbers as one
    column, and the one-row column means, variances, scales and shifts. -/
abbrev Hin2 (c : Dev nD) : Vec Ideal S100000x128 .f32 := V c main_v18_0
abbrev Bin2 (c : Dev nD) : Vec Ideal S100000x1 .i32 := V c main_v17
abbrev Min2 (c : Dev nD) : Vec Ideal S1x128 .f32 := V c main_v26
abbrev Vin2 (c : Dev nD) : Vec Ideal S1x128 .f32 := V c main_v37
abbrev Gin2 (c : Dev nD) : Vec Ideal S1x128 .f32 := V c main_v38
abbrev Ein2 (c : Dev nD) : Vec Ideal S1x128 .f32 := V c main_v39

/-- The input windows' blocks at a point, at their literal types. -/
private abbrev xb0 (c : Dev nD) (t : Fin cfg2.N) : Vec Ideal S5000x128 .f32 := iblk2 V c 0 t
private abbrev xb1 (c : Dev nD) (t : Fin cfg2.N) : Vec Ideal S5000x1 .i32 := iblk2 V c 1 t
private abbrev xb2 (c : Dev nD) (t : Fin cfg2.N) : Vec Ideal S1x128 .f32 := iblk2 V c 2 t
private abbrev xb3 (c : Dev nD) (t : Fin cfg2.N) : Vec Ideal S1x128 .f32 := iblk2 V c 3 t
private abbrev xb4 (c : Dev nD) (t : Fin cfg2.N) : Vec Ideal S1x128 .f32 := iblk2 V c 4 t
private abbrev xb5 (c : Dev nD) (t : Fin cfg2.N) : Vec Ideal S1x128 .f32 := iblk2 V c 5 t

/-- The block indices of the seven windows at a point: the row-blocked windows are at block t, the one-row windows at
    block 0, the result at half t / 10. -/
private theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 3) = t.val / 10 ∧ win2_6.index t (1 : Fin 3) = 0 ∧ win2_6.index t (2 : Fin 3) = 0 :=
  (by decide +kernel : ∀ t : Fin grid2.N, _)

/-- Row q of the features' block at point t is row 5000 t + q of the features. -/
private theorem xb0_apply (c : Dev nD) (t : Fin cfg2.N) (q : Fin 5000) (j : Fin 128) (hr : 5000 * t.val + q.val < 100000) :
    xb0 V c t (ix2 q j) = Hin2 V c (ix2 ⟨5000 * t.val + q.val, hr⟩ j) := by
  obtain ⟨e0, e1, -⟩ := idx2 t
  show iblk2 V c 0 t (ix2 q j) = _
  unfold iblk2
  rw [View.read_apply]
  show V c main_v18_0 _ = V c main_v18_0 _
  congr 1
  funext a
  apply Fin.ext
  match a with
  | ⟨0, _⟩ => show win2_0.index t (0 : Fin 2) * 5000 + 1 * q.val = 5000 * t.val + q.val; rw [e0]; omega
  | ⟨1, _⟩ => show win2_0.index t (1 : Fin 2) * 128 + 1 * j.val = j.val; rw [e1]; omega

/-- Row q of the graph numbers' block at point t is row 5000 t + q of the graph numbers. -/
private theorem xb1_apply (c : Dev nD) (t : Fin cfg2.N) (q : Fin 5000) (hr : 5000 * t.val + q.val < 100000) :
    xb1 V c t (ix2 q 0) = Bin2 V c (ix2 ⟨5000 * t.val + q.val, hr⟩ 0) := by
  obtain ⟨-, -, e0, e1, -⟩ := idx2 t
  show iblk2 V c 1 t (ix2 q 0) = _
  unfold iblk2
  rw [View.read_apply]
  show V c main_v17 _ = V c main_v17 _
  congr 1
  funext a
  apply Fin.ext
  match a with
  | ⟨0, _⟩ => show win2_1.index t (0 : Fin 2) * 5000 + 1 * q.val = 5000 * t.val + q.val; rw [e0]; omega
  | ⟨1, _⟩ => show win2_1.index t (1 : Fin 2) * 1 + 1 * 0 = 0; rw [e1]

/-- The means' block at any point is the means. -/
private theorem xb2_apply (c : Dev nD) (t : Fin cfg2.N) (j : Fin 128) : xb2 V c t (ix2 0 j) = Min2 V c (ix2 0 j) := by
  obtain ⟨-, -, -, -, e0, e1, -⟩ := idx2 t
  show iblk2 V c 2 t (ix2 0 j) = _
  unfold iblk2
  rw [View.read_apply]
  show V c main_v26 _ = V c main_v26 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * j.val = j.val; rw [e1]; omega

/-- The variances' block at any point is the variances. -/
private theorem xb3_apply (c : Dev nD) (t : Fin cfg2.N) (j : Fin 128) : xb3 V c t (ix2 0 j) = Vin2 V c (ix2 0 j) := by
  obtain ⟨-, -, -, -, -, -, e0, e1, -⟩ := idx2 t
  show iblk2 V c 3 t (ix2 0 j) = _
  unfold iblk2
  rw [View.read_apply]
  show V c main_v37 _ = V c main_v37 _
  congr 1
  funext a
  apply Fin.ext
  match a with
  | ⟨0, _⟩ => show win2_3.index t (0 : Fin 2) * 1 + 1 * 0 = 0; rw [e0]
  | ⟨1, _⟩ => show win2_3.index t (1 : Fin 2) * 128 + 1 * j.val = j.val; rw [e1]; omega

/-- The scales' block at any point is the scales. -/
private theorem xb4_apply (c : Dev nD) (t : Fin cfg2.N) (j : Fin 128) : xb4 V c t (ix2 0 j) = Gin2 V c (ix2 0 j) := by
  obtain ⟨-, -, -, -, -, -, -, -, e0, e1, -⟩ := idx2 t
  show iblk2 V c 4 t (ix2 0 j) = _
  unfold iblk2
  rw [View.read_apply]
  show V c main_v38 _ = V c main_v38 _
  congr 1
  funext a
  apply Fin.ext
  match a with
  | ⟨0, _⟩ => show win2_4.index t (0 : Fin 2) * 1 + 1 * 0 = 0; rw [e0]
  | ⟨1, _⟩ => show win2_4.index t (1 : Fin 2) * 128 + 1 * j.val = j.val; rw [e1]; omega

/-- The shifts' block at any point is the shifts. -/
private theorem xb5_apply (c : Dev nD) (t : Fin cfg2.N) (j : Fin 128) : xb5 V c t (ix2 0 j) = Ein2 V c (ix2 0 j) := by
  obtain ⟨-, -, -, -, -, -, -, -, -, -, e0, e1, -⟩ := idx2 t
  show iblk2 V c 5 t (ix2 0 j) = _
  unfold iblk2
  rw [View.read_apply]
  show V c main_v39 _ = V c main_v39 _
  congr 1
  funext a
  apply Fin.ext
  match a with
  | ⟨0, _⟩ => show win2_5.index t (0 : Fin 2) * 1 + 1 * 0 = 0; rw [e0]
  | ⟨1, _⟩ => show win2_5.index t (1 : Fin 2) * 128 + 1 * j.val = j.val; rw [e1]; omega

/-- One node's contribution to graph g, column j: the indicator that the node is in graph g times its normalised,
    scaled and shifted feature. -/
private abbrev term2 (c : Dev nD) (g : Fin 256) (j : Fin 128) : ℕ → EReal := fun r =>
  Cert.Gin.hot (Cert.Gin.batchN (Bin2 V c) r) g
    * Cert.Gin.bn (Cert.Gin.rowN (Hin2 V c) r j) (Min2 V c (ix2 0 j)) (Vin2 V c (ix2 0 j)) (Gin2 V c (ix2 0 j)) (Ein2 V c (ix2 0 j))

/-- The sum the body adds at point t is block t's sum of the nodes' contributions. -/
private theorem pay_blk (c : Dev nD) (t : Fin cfg2.N) (g : Fin 256) (j : Fin 128) :
    (∑ q : Fin 5000, Cert.Gin.hot (xb1 V c t (ix2 q 0)) g
        * Cert.Gin.bn (xb0 V c t (ix2 q j)) (xb2 V c t (ix2 0 j)) (xb3 V c t (ix2 0 j)) (xb4 V c t (ix2 0 j)) (xb5 V c t (ix2 0 j)))
      = Cert.Gin.blockSum (term2 V c g j) t.val := by
  have hN : t.val < 20 := lt_of_lt_of_eq t.isLt (show cfg2.N = 20 from N_2)
  unfold Cert.Gin.blockSum
  rw [← Fin.sum_univ_eq_sum_range (fun q => term2 V c g j (5000 * t.val + q)) 5000]
  refine Finset.sum_congr rfl fun q _ => ?_
  have hr : 5000 * t.val + q.val < 100000 := by have := q.isLt; omega
  rw [xb0_apply V c t q j hr, xb1_apply V c t q hr, xb2_apply V c t j, xb3_apply V c t j, xb4_apply V c t j, xb5_apply V c t j]
  show _ = Cert.Gin.hot (Cert.Gin.batchN (Bin2 V c) (5000 * t.val + q.val)) g
    * Cert.Gin.bn (Cert.Gin.rowN (Hin2 V c) (5000 * t.val + q.val) j) (Min2 V c (ix2 0 j)) (Vin2 V c (ix2 0 j)) (Gin2 V c (ix2 0 j)) (Ein2 V c (ix2 0 j))
  unfold Cert.Gin.rowN Cert.Gin.batchN
  rw [dif_pos hr, dif_pos hr]

/-- The accumulator at a step that starts a period. -/
private theorem acc_reset (b : ℕ → EReal) (n : ℕ) (h : n % 10 = 0) : Cert.Gin.acc b n = Cert.Gin.zero + b n := by
  cases n with
  | zero => rfl
  | succ k => unfold Cert.Gin.acc; rw [if_pos h]

/-- The accumulator at a step inside a period. -/
private theorem acc_step (b : ℕ → EReal) (n : ℕ) (h : ¬n % 10 = 0) : Cert.Gin.acc b n = Cert.Gin.acc b (n - 1) + b n := by
  cases n with
  | zero => exact absurd rfl h
  | succ k => rw [Cert.Gin.acc, if_neg h]; rfl

/-- After point n the accumulator's staging buffer holds, at graph g and column j, the accumulator of the block sums. -/
private theorem outs2_eq (c : Dev nD) (g : Fin 256) (j : Fin 128) : ∀ (n : ℕ) (h : n < cfg2.N),
    outsAt2 V c n h (ix3 0 g j) = Cert.Gin.acc (Cert.Gin.blockSum (term2 V c g j)) n := by
  intro n
  induction n using Nat.strong_induction_on with
  | _ n ih =>
    intro h
    by_cases h0 : n % 10 = 0
    · refine (congrFun (outsAt2_A V c ⟨n, h⟩ h0) (ix3 0 g j)).trans ?_
      refine (congrFun (out2_A c (grid2.coords ⟨n, h⟩) (ms2_0 ⟨n, h⟩) (hs2_0 ⟨n, h⟩) (ms2_1 ⟨n, h⟩) (hs2_1 ⟨n, h⟩) (ms2_2 ⟨n, h⟩) (hs2_2 ⟨n, h⟩) (ms2_3 ⟨n, h⟩) (hs2_3 ⟨n, h⟩) (ms2_4 ⟨n, h⟩) (hs2_4 ⟨n, h⟩) (ms2_5 ⟨n, h⟩) (hs2_5 ⟨n, h⟩) (ms2_6 ⟨n, h⟩) (hs2_6 ⟨n, h⟩) ((hcond2_0 ⟨n, h⟩).mpr h0) (xb0 V c ⟨n, h⟩) (xb1 V c ⟨n, h⟩) (xb2 V c ⟨n, h⟩) (xb3 V c ⟨n, h⟩) (xb4 V c ⟨n, h⟩) (xb5 V c ⟨n, h⟩)) (ix3 0 g j)).trans ?_
      refine (k2_pay2_apply (xb3 V c ⟨n, h⟩) (xb0 V c ⟨n, h⟩) (xb2 V c ⟨n, h⟩) (xb4 V c ⟨n, h⟩) (xb5 V c ⟨n, h⟩) (xb1 V c ⟨n, h⟩) (k2_pay1 (F := Ideal)) g j).trans ?_
      rw [k2_pay1_apply, pay_blk V c ⟨n, h⟩ g j, acc_reset _ n h0]
    · refine (congrFun (outsAt2_B V c ⟨n, h⟩ h0) (ix3 0 g j)).trans ?_
      refine (congrFun (out2_B c (grid2.coords ⟨n, h⟩) (ms2_0 ⟨n, h⟩) (hs2_0 ⟨n, h⟩) (ms2_1 ⟨n, h⟩) (hs2_1 ⟨n, h⟩) (ms2_2 ⟨n, h⟩) (hs2_2 ⟨n, h⟩) (ms2_3 ⟨n, h⟩) (hs2_3 ⟨n, h⟩) (ms2_4 ⟨n, h⟩) (hs2_4 ⟨n, h⟩) (ms2_5 ⟨n, h⟩) (hs2_5 ⟨n, h⟩) (ms2_6 ⟨n, h⟩) (hs2_6 ⟨n, h⟩) (fun hh => h0 ((hcond2_0 ⟨n, h⟩).mp hh)) (xb0 V c ⟨n, h⟩) (xb1 V c ⟨n, h⟩) (xb2 V c ⟨n, h⟩) (xb3 V c ⟨n, h⟩) (xb4 V c ⟨n, h⟩) (xb5 V c ⟨n, h⟩)
        (outsAt2 V c (n - 1) (Nat.lt_of_le_of_lt (Nat.sub_le _ _) h))) (ix3 0 g j)).trans ?_
      refine (k2_pay2_apply (xb3 V c ⟨n, h⟩) (xb0 V c ⟨n, h⟩) (xb2 V c ⟨n, h⟩) (xb4 V c ⟨n, h⟩) (xb5 V c ⟨n, h⟩) (xb1 V c ⟨n, h⟩) (outsAt2 V c (n - 1) (Nat.lt_of_le_of_lt (Nat.sub_le _ _) h)) g j).trans ?_
      rw [ih (n - 1) (by omega) _, pay_blk V c ⟨n, h⟩ g j, acc_step _ n h0]

/-- What the result array ends holding: per half, graph and column, the half's accumulated sum of the nodes'
    contributions. -/
private def pool2 (c : Dev nD) : Vec Ideal S2x256x128 .f32 := fun i =>
  Cert.Gin.shardSum (term2 V c (i 1) (i 2)) (i 0).val

/-- At the last point of a half the accumulator's staging buffer, read at an index of the block, holds the result at
    the index of the array with the same graph and column in that half. -/
private theorem flush_pt (c : Dev nD) (t : Fin cfg2.N) (h9 : t.val % 10 = 9) (g : Fin 256) (j : Fin 128) (z : S1x256x128.Idx)
    (i : S2x256x128.Idx) (hz1 : (z 1).val = g.val) (hz2 : (z 2).val = j.val)
    (hi0 : (i 0).val = t.val / 10) (hi1 : (i 1).val = g.val) (hi2 : (i 2).val = j.val) :
    outsAt2 V c t.val t.isLt z = pool2 V c i := by
  have ez : z = ix3 0 g j := funext fun a => match a with
    | ⟨0, _⟩ => Fin.ext (by show (z 0).val = 0; have : (z 0).val < 1 := (z 0).isLt; omega)
    | ⟨1, _⟩ => Fin.ext hz1
    | ⟨2, _⟩ => Fin.ext hz2
  have e1 : (i 1 : Fin 256) = g := Fin.ext hi1
  have e2 : (i 2 : Fin 128) = j := Fin.ext hi2
  rw [ez, outs2_eq V c g j t.val t.isLt]
  show _ = Cert.Gin.shardSum (term2 V c (i 1) (i 2)) (i 0).val
  rw [e1, e2, hi0]
  have key : ∀ s : ℕ, t.val = 10 * s + 9 →
      Cert.Gin.acc (Cert.Gin.blockSum (term2 V c g j)) t.val = Cert.Gin.shardSum (term2 V c g j) s := by
    intro s hs
    rw [hs]
    exact Cert.Gin.acc_last _ s
  exact key (t.val / 10) (by omega)

/-- What a point that writes back writes is its block of the result. -/
private theorem flushed2_eq (c : Dev nD) (t : Fin cfg2.N) (hf : (cfg2.win 6).flush t = true) :
    (dat2 V c).flushed 6 t = ((cfg2.win 6).blk t).view.read (Elt Ideal) (pool2 V c) := by
  have h9 : t.val % 10 = 9 := (flush2_6 t).mp hf
  obtain ⟨-, -, -, -, -, -, -, -, -, -, -, -, e0, e1, e2⟩ := idx2 t
  show (cfg2.win 6).cut (grid2.coords t) ((dat2 V c).after 6 t) = _
  rw [after2_6]
  funext y
  rw [View.read_apply]
  refine flush_pt V c t h9 ⟨(y 1).val, (y 1).isLt⟩ ⟨(y 2).val, (y 2).isLt⟩ (win2_6.xinj (grid2.coords t) y)
    (((cfg2.win 6).blk t).view.emb y) rfl rfl ?_ ?_ ?_
  · show win2_6.index t (0 : Fin 3) * 1 + 1 * (y 0).val = t.val / 10
    rw [e0]; have : (y 0).val < 1 := (y 0).isLt; omega
  · show win2_6.index t (1 : Fin 3) * 256 + 1 * (y 1).val = (y 1).val
    rw [e1]; omega
  · show win2_6.index t (2 : Fin 3) * 128 + 1 * (y 2).val = (y 2).val
    rw [e2]; omega

/-- Region 2's result array ends holding, per half, graph and column, zero plus the half's ten block sums of the
    normalised features of the nodes of that graph. -/
theorem reg2_pool (c : Dev nD) (s : Fin 2) (g : Fin 256) (j : Fin 128) :
    (dat2 V c).arrAt 6 cfg2.N (ix3 s g j)
      = Cert.Gin.shardSum (fun r => Cert.Gin.hot (Cert.Gin.batchN (Bin2 V c) r) g
          * Cert.Gin.bn (Cert.Gin.rowN (Hin2 V c) r j) (Min2 V c (ix2 0 j)) (Vin2 V c (ix2 0 j)) (Gin2 V c (ix2 0 j)) (Ein2 V c (ix2 0 j))) s.val := by
  have hN : cfg2.N = 20 := N_2
  have ht : 10 * s.val + 9 < cfg2.N := by rw [hN]; have := s.isLt; omega
  obtain ⟨-, -, -, -, -, -, -, -, -, -, -, -, e0, e1, e2⟩ := idx2 ⟨10 * s.val + 9, ht⟩
  refine ((dat2 V c).arrAt_apply_of_mem 6 (pool2 V c) (flushed2_eq V c) cfg2.N ⟨10 * s.val + 9, ht⟩ (ix3 s g j) ht
    ((flush2_6 _).mpr (by show (10 * s.val + 9) % 10 = 9; omega)) ?_).trans rfl
  show ix3 s g j ∈ ((View.whole main_v40).slice (win2_6.rect ⟨10 * s.val + 9, ht⟩)).set
  rw [View.set_slice_whole, Rect.mem_set_unit]
  intro a
  match a with
  | ⟨0, _⟩ =>
    show win2_6.index ⟨10 * s.val + 9, ht⟩ (0 : Fin 3) * 1 ≤ s.val ∧ s.val < win2_6.index ⟨10 * s.val + 9, ht⟩ (0 : Fin 3) * 1 + 1
    rw [e0]; dsimp only; omega
  | ⟨1, _⟩ =>
    show win2_6.index ⟨10 * s.val + 9, ht⟩ (1 : Fin 3) * 256 ≤ g.val ∧ g.val < win2_6.index ⟨10 * s.val + 9, ht⟩ (1 : Fin 3) * 256 + 256
    rw [e1]; have := g.isLt; omega
  | ⟨2, _⟩ =>
    show win2_6.index ⟨10 * s.val + 9, ht⟩ (2 : Fin 3) * 128 ≤ j.val ∧ j.val < win2_6.index ⟨10 * s.val + 9, ht⟩ (2 : Fin 3) * 128 + 128
    rw [e2]; have := j.isLt; omega

end Cert.KernelIdeal.Val

end
-- ==== Proof.KHost.lean ====
/-
  The host operations between the kernels: what each region is entered with, and what the program returns, in terms
  of the launch memory and of what the regions before left.
-/
import proofs.«421296_j1039382085872_3_alg».proof.Proof.Gen.KernelIdeal.Frame
import proofs.«421296_j1039382085872_3_alg».proof.Proof.Spec
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-- The neighbours' sum as the host computes it from the features and the edge list (a gather of the source rows,
    scattered and added at the destination rows); kept folded: the other program computes the same term. -/
def aggK (x : Vec Ideal S100000x64 .f32) (ei : Vec Ideal S2x1600000 .i32) : Vec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0
      (shapeCast S1600000 (extractStridedSlice S1x1600000 ![1, 0] ei slices_S2x1600000_S1x1600000_1_0)
        shapeCasts_S1x1600000_S1600000))
    (Host.gather gather_S100000x64_S1600000x1_S1600000x64_1_0_n_n_0_1_164 x
      (broadcastInDim S1600000x1 ![0] bcast_S1600000_S1600000x1_0
        (select
          (cmpi .slt
            (shapeCast S1600000 (extractStridedSlice S1x1600000 ![0, 0] ei slices_S2x1600000_S1x1600000_0_0)
              shapeCasts_S1x1600000_S1600000)
            (broadcastInDim S1600000 ![] bcast_S_S1600000 (constantI S_ 32 0#32)))
          (addi
            (shapeCast S1600000 (extractStridedSlice S1x1600000 ![0, 0] ei slices_S2x1600000_S1x1600000_0_0)
              shapeCasts_S1x1600000_S1600000)
            (broadcastInDim S1600000 ![] bcast_S_S1600000 (constantI S_ 32 100000#32)))
          (shapeCast S1600000 (extractStridedSlice S1x1600000 ![0, 0] ei slices_S2x1600000_S1x1600000_0_0)
            shapeCasts_S1x1600000_S1600000))))

/-! ### A buffer no operation of a stretch writes keeps its contents -/

local macro "keeps" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ### What each stretch leaves in the buffers it writes, over any contents at its start -/

private theorem after0_v13 (W : Valuation τ sig (Elt Ideal)) :
    StableHlo.after hostOps0 W (Proc.devRef .tc main_v13)
      = aggK (W (Proc.devRef .tc main_arg0)) (W (Proc.devRef .tc main_arg1)) := by
  after_results
  rfl

private theorem after0_v14 (W : Valuation τ sig (Elt Ideal)) :
    StableHlo.after hostOps0 W (Proc.devRef .tc main_v14)
      = shapeCast S1x128 (W (Proc.devRef .tc main_arg4)) shapeCasts_S128_S1x128 := by
  after_results
  rfl

private theorem after0_v15 (W : Valuation τ sig (Elt Ideal)) :
    StableHlo.after hostOps0 W (Proc.devRef .tc main_v15)
      = shapeCast S1x128 (W (Proc.devRef .tc main_arg6)) shapeCasts_S128_S1x128 := by
  after_results
  rfl

private theorem after0_v16 (W : Valuation τ sig (Elt Ideal)) :
    StableHlo.after hostOps0 W (Proc.devRef .tc main_v16)
      = shapeCast S1x128 (W (Proc.devRef .tc main_arg8)) shapeCasts_S128_S1x128 := by
  after_results
  rfl

private theorem after0_v17 (W : Valuation τ sig (Elt Ideal)) :
    StableHlo.after hostOps0 W (Proc.devRef .tc main_v17)
      = shapeCast S100000x1 (W (Proc.devRef .tc main_arg2)) shapeCasts_S100000_S100000x1 := by
  after_results
  rfl

/-- The two halves of a 2×1×128 array added, as one row, over the node count. -/
private def halves (a : Vec Ideal S2x1x128 .f32) : Vec Ideal S1x128 .f32 :=
  Host.divf (F := Ideal)
    (shapeCast S1x128
      (addf
        (shapeCast S128 (extractStridedSlice S1x1x128 ![0, 0, 0] a slices_S2x1x128_S1x1x128_0_0_0) shapeCasts_S1x1x128_S128)
        (shapeCast S128 (extractStridedSlice S1x1x128 ![1, 0, 0] a slices_S2x1x128_S1x1x128_1_0_0) shapeCasts_S1x1x128_S128))
      shapeCasts_S128_S1x128)
    (broadcastInDim S1x128 ![] bcast_S_S1x128 (constant (F := Ideal) S_ .f32 0x47C35000#32))

private theorem halves_apply (a : Vec Ideal S2x1x128 .f32) (j : Fin 128) :
    halves a (ix2 0 j) = Ideal.div (a (ix3 0 0 j) + a (ix3 1 0 j)) Cert.Gin.cnt := by
  have e0 : shapeCast S128 (extractStridedSlice S1x1x128 ![0, 0, 0] a slices_S2x1x128_S1x1x128_0_0_0)
      shapeCasts_S1x1x128_S128 (ix1 j) = a (ix3 0 0 j) :=
    (shapeCast_apply _ shapeCasts_S1x1x128_S128 (ix1 j) (ix3 (0 : Fin 1) (0 : Fin 1) j) (by
      rw [Shape.rowMajor_val_three, Shape.rowMajor_val_one]; show (0 * 1 + 0) * 128 + j.val = j.val; omega)).trans
    (extractStridedSlice_apply _ a slices_S2x1x128_S1x1x128_0_0_0 (ix3 (0 : Fin 1) (0 : Fin 1) j) (ix3 (0 : Fin 2) (0 : Fin 1) j) (by
      intro d
      match d with
      | ⟨0, _⟩ => rfl
      | ⟨1, _⟩ => rfl
      | ⟨2, _⟩ => show j.val = 0 + j.val; omega))
  have e1 : shapeCast S128 (extractStridedSlice S1x1x128 ![1, 0, 0] a slices_S2x1x128_S1x1x128_1_0_0)
      shapeCasts_S1x1x128_S128 (ix1 j) = a (ix3 1 0 j) :=
    (shapeCast_apply _ shapeCasts_S1x1x128_S128 (ix1 j) (ix3 (0 : Fin 1) (0 : Fin 1) j) (by
      rw [Shape.rowMajor_val_three, Shape.rowMajor_val_one]; show (0 * 1 + 0) * 128 + j.val = j.val; omega)).trans
    (extractStridedSlice_apply _ a slices_S2x1x128_S1x1x128_1_0_0 (ix3 (0 : Fin 1) (0 : Fin 1) j) (ix3 (1 : Fin 2) (0 : Fin 1) j) (by
      intro d
      match d with
      | ⟨0, _⟩ => rfl
      | ⟨1, _⟩ => rfl
      | ⟨2, _⟩ => show j.val = 0 + j.val; omega))
  show Ideal.div (shapeCast S1x128 _ shapeCasts_S128_S1x128 (ix2 0 j)) (Ideal.ofBits .f32 0x47C35000#32) = _
  rw [shapeCast_apply _ shapeCasts_S128_S1x128 (ix2 (0 : Fin 1) j) (ix1 j) (by
    rw [Shape.rowMajor_val_two, Shape.rowMajor_val_one]; show j.val = 0 * 128 + j.val; omega)]
  rw [addf_apply, e0, e1]
  rfl

private theorem after1_v26 (W : Valuation τ sig (Elt Ideal)) :
    StableHlo.after hostOps1 W (Proc.devRef .tc main_v26) = halves (W (Proc.devRef .tc main_v18_1)) := by
  after_results
  rfl

private theorem after2_v37 (W : Valuation τ sig (Elt Ideal)) :
    StableHlo.after hostOps2 W (Proc.devRef .tc main_v37)
      = maximumf (halves (W (Proc.devRef .tc main_v27)))
          (broadcastInDim S1x128 ![] bcast_S_S1x128 (constant (F := Ideal) S_ .f32 0x00000000#32)) := by
  after_results
  rfl

private theorem after2_v38 (W : Valuation τ sig (Elt Ideal)) :
    StableHlo.after hostOps2 W (Proc.devRef .tc main_v38)
      = shapeCast S1x128 (W (Proc.devRef .tc main_arg9)) shapeCasts_S128_S1x128 := by
  after_results
  rfl

private theorem after2_v39 (W : Valuation τ sig (Elt Ideal)) :
    StableHlo.after hostOps2 W (Proc.devRef .tc main_v39)
      = shapeCast S1x128 (W (Proc.devRef .tc main_arg10)) shapeCasts_S128_S1x128 := by
  after_results
  rfl

/-- The two halves of a 2×256×128 array added. -/
private def twoHalves (a : Vec Ideal S2x256x128 .f32) : Vec Ideal S256x128 .f32 :=
  addf (F := Ideal) (φ := .f32)
    (shapeCast S256x128 (extractStridedSlice S1x256x128 ![0, 0, 0] a slices_S2x256x128_S1x256x128_0_0_0)
      shapeCasts_S1x256x128_S256x128)
    (shapeCast S256x128 (extractStridedSlice S1x256x128 ![1, 0, 0] a slices_S2x256x128_S1x256x128_1_0_0)
      shapeCasts_S1x256x128_S256x128)

private theorem twoHalves_apply (a : Vec Ideal S2x256x128 .f32) (g : Fin 256) (j : Fin 128) :
    twoHalves a (ix2 g j) = a (ix3 0 g j) + a (ix3 1 g j) := by
  have e0 : shapeCast S256x128 (extractStridedSlice S1x256x128 ![0, 0, 0] a slices_S2x256x128_S1x256x128_0_0_0)
      shapeCasts_S1x256x128_S256x128 (ix2 g j) = a (ix3 0 g j) :=
    (shapeCast_apply _ shapeCasts_S1x256x128_S256x128 (ix2 g j) (ix3 (0 : Fin 1) g j) (by
      rw [Shape.rowMajor_val_three, Shape.rowMajor_val_two]
      show (0 * 256 + g.val) * 128 + j.val = g.val * 128 + j.val; omega)).trans
    (extractStridedSlice_apply _ a slices_S2x256x128_S1x256x128_0_0_0 (ix3 (0 : Fin 1) g j) (ix3 (0 : Fin 2) g j) (by
      intro d
      match d with
      | ⟨0, _⟩ => rfl
      | ⟨1, _⟩ => show g.val = 0 + g.val; omega
      | ⟨2, _⟩ => show j.val = 0 + j.val; omega))
  have e1 : shapeCast S256x128 (extractStridedSlice S1x256x128 ![1, 0, 0] a slices_S2x256x128_S1x256x128_1_0_0)
      shapeCasts_S1x256x128_S256x128 (ix2 g j) = a (ix3 1 g j) :=
    (shapeCast_apply _ shapeCasts_S1x256x128_S256x128 (ix2 g j) (ix3 (0 : Fin 1) g j) (by
      rw [Shape.rowMajor_val_three, Shape.rowMajor_val_two]
      show (0 * 256 + g.val) * 128 + j.val = g.val * 128 + j.val; omega)).trans
    (extractStridedSlice_apply _ a slices_S2x256x128_S1x256x128_1_0_0 (ix3 (0 : Fin 1) g j) (ix3 (1 : Fin 2) g j) (by
      intro d
      match d with
      | ⟨0, _⟩ => rfl
      | ⟨1, _⟩ => show g.val = 0 + g.val; omega
      | ⟨2, _⟩ => show j.val = 0 + j.val; omega))
  show (shapeCast S256x128 _ shapeCasts_S1x256x128_S256x128 (ix2 g j) : EReal)
      + (shapeCast S256x128 _ shapeCasts_S1x256x128_S256x128 (ix2 g j) : EReal) = _
  rw [e0, e1]

private theorem after3_v45 (W : Valuation τ sig (Elt Ideal)) :
    StableHlo.after hostOps3 W (Proc.devRef .tc main_v45) = twoHalves (W (Proc.devRef .tc main_v40)) := by
  after_results
  rfl

/-- An argument no stretch writes and regions 0 and 1 do not take reaches region 2's stretch as launched. -/
private theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by
          show StableHlo.after hostOps1 (W2 m ρ c) (Proc.devRef .tc main_arg9) = _
          keeps hostOps1
    _ = W1 m ρ c (Proc.devRef .tc main_arg9) := W2_of_ne m ρ c main_arg9 (by decide)
    _ = W0 m ρ c (Proc.devRef .tc main_arg9) := by
          show StableHlo.after hostOps0 (W0 m ρ c) (Proc.devRef .tc main_arg9) = _
          keeps hostOps0
    _ = m ((c : Thread nD τ).loc main_arg9) := rfl
private theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by
          show StableHlo.after hostOps1 (W2 m ρ c) (Proc.devRef .tc main_arg10) = _
          keeps hostOps1
    _ = W1 m ρ c (Proc.devRef .tc main_arg10) := W2_of_ne m ρ c main_arg10 (by decide)
    _ = W0 m ρ c (Proc.devRef .tc main_arg10) := by
          show StableHlo.after hostOps0 (W0 m ρ c) (Proc.devRef .tc main_arg10) = _
          keeps hostOps0
    _ = m ((c : Thread nD τ).loc main_arg10) := rfl

/-- What the three regions leave in their result arrays. -/
abbrev hArr (c : Dev nD) : Vec Ideal S100000x128 .f32 := (dat0 (V1 m ρ) c).arrAt 8 cfg0.N
abbrev msArr (c : Dev nD) : Vec Ideal S2x1x128 .f32 := (dat0 (V1 m ρ) c).arrAt 9 cfg0.N
abbrev vsArr (c : Dev nD) : Vec Ideal S2x1x128 .f32 := (dat1 (V3 m ρ) c).arrAt 2 cfg1.N
abbrev plArr (c : Dev nD) : Vec Ideal S2x256x128 .f32 := (dat2 (V5 m ρ) c).arrAt 6 cfg2.N

/-! ## Region 0 is entered with the arguments, the neighbours' sum, and the biases as one-row matrices -/

theorem V1_arg0 (c : Dev nD) : V1 m ρ c main_arg0 = m ((c : Thread nD τ).loc main_arg0) := by
  show StableHlo.after hostOps0 (W0 m ρ c) (Proc.devRef .tc main_arg0) = W0 m ρ c (Proc.devRef .tc main_arg0)
  keeps hostOps0
theorem V1_arg3 (c : Dev nD) : V1 m ρ c main_arg3 = m ((c : Thread nD τ).loc main_arg3) := by
  show StableHlo.after hostOps0 (W0 m ρ c) (Proc.devRef .tc main_arg3) = W0 m ρ c (Proc.devRef .tc main_arg3)
  keeps hostOps0
theorem V1_arg5 (c : Dev nD) : V1 m ρ c main_arg5 = m ((c : Thread nD τ).loc main_arg5) := by
  show StableHlo.after hostOps0 (W0 m ρ c) (Proc.devRef .tc main_arg5) = W0 m ρ c (Proc.devRef .tc main_arg5)
  keeps hostOps0
theorem V1_arg7 (c : Dev nD) : V1 m ρ c main_arg7 = m ((c : Thread nD τ).loc main_arg7) := by
  show StableHlo.after hostOps0 (W0 m ρ c) (Proc.devRef .tc main_arg7) = W0 m ρ c (Proc.devRef .tc main_arg7)
  keeps hostOps0
theorem V1_v13 (c : Dev nD) :
    V1 m ρ c main_v13 = aggK (m ((c : Thread nD τ).loc main_arg0)) (m ((c : Thread nD τ).loc main_arg1)) :=
  after0_v13 (W0 m ρ c)
theorem V1_v14 (c : Dev nD) : Cert.Mlp.row (V1 m ρ c main_v14) = Cert.Mlp.vec (m ((c : Thread nD τ).loc main_arg4)) := by
  have h : V1 m ρ c main_v14 = shapeCast S1x128 (m ((c : Thread nD τ).loc main_arg4)) shapeCasts_S128_S1x128 :=
    after0_v14 (W0 m ρ c)
  rw [h]; exact Cert.Mlp.row_shapeCast _ _
theorem V1_v15 (c : Dev nD) : Cert.Mlp.row (V1 m ρ c main_v15) = Cert.Mlp.vec (m ((c : Thread nD τ).loc main_arg6)) := by
  have h : V1 m ρ c main_v15 = shapeCast S1x128 (m ((c : Thread nD τ).loc main_arg6)) shapeCasts_S128_S1x128 :=
    after0_v15 (W0 m ρ c)
  rw [h]; exact Cert.Mlp.row_shapeCast _ _
theorem V1_v16 (c : Dev nD) : Cert.Mlp.row (V1 m ρ c main_v16) = Cert.Mlp.vec (m ((c : Thread nD τ).loc main_arg8)) := by
  have h : V1 m ρ c main_v16 = shapeCast S1x128 (m ((c : Thread nD τ).loc main_arg8)) shapeCasts_S128_S1x128 :=
    after0_v16 (W0 m ρ c)
  rw [h]; exact Cert.Mlp.row_shapeCast _ _

/-! ## Region 1 is entered with region 0's features and the column means of its two halves' sums -/

theorem V3_v18_0 (c : Dev nD) : V3 m ρ c main_v18_0 = hArr m ρ c :=
  calc V3 m ρ c main_v18_0
    _ = W2 m ρ c (Proc.devRef .tc main_v18_0) := by
          show StableHlo.after hostOps1 (W2 m ρ c) (Proc.devRef .tc main_v18_0) = _
          keeps hostOps1
    _ = hArr m ρ c := W2_arr m ρ c 8
theorem V3_v26 (c : Dev nD) (j : Fin 128) :
    V3 m ρ c main_v26 (ix2 0 j) = Ideal.div (msArr m ρ c (ix3 0 0 j) + msArr m ρ c (ix3 1 0 j)) Cert.Gin.cnt := by
  have h := (congrFun (after1_v26 (W2 m ρ c)) (ix2 0 j)).trans (halves_apply _ j)
  rw [show W2 m ρ c (Proc.devRef .tc main_v18_1) = msArr m ρ c from W2_arr m ρ c 9] at h
  exact h

/-! ## Region 2 is entered with the features, the graph numbers as a column, the means, the floored variances, scale and shift -/

theorem V5_v18_0 (c : Dev nD) : V5 m ρ c main_v18_0 = hArr m ρ c :=
  calc V5 m ρ c main_v18_0
    _ = W4 m ρ c (Proc.devRef .tc main_v18_0) := by
          show StableHlo.after hostOps2 (W4 m ρ c) (Proc.devRef .tc main_v18_0) = _
          keeps hostOps2
    _ = V3 m ρ c main_v18_0 := (W4_arr m ρ c 0).trans (((dat1 (V3 m ρ) c).arrAt_in 0 rfl _).trans (A_eq1 (V3 m ρ) c 0))
    _ = hArr m ρ c := V3_v18_0 m ρ c
theorem V5_v17 (c : Dev nD) (r : Fin 100000) :
    V5 m ρ c main_v17 (ix2 r 0) = m ((c : Thread nD τ).loc main_arg2) (ix1 r) := by
  have h : V5 m ρ c main_v17 = shapeCast S100000x1 (m ((c : Thread nD τ).loc main_arg2)) shapeCasts_S100000_S100000x1 :=
    calc V5 m ρ c main_v17
      _ = W4 m ρ c (Proc.devRef .tc main_v17) := by
            show StableHlo.after hostOps2 (W4 m ρ c) (Proc.devRef .tc main_v17) = _
            keeps hostOps2
      _ = W3 m ρ c (Proc.devRef .tc main_v17) := W4_of_ne m ρ c main_v17 (by decide)
      _ = W2 m ρ c (Proc.devRef .tc main_v17) := by
            show StableHlo.after hostOps1 (W2 m ρ c) (Proc.devRef .tc main_v17) = _
            keeps hostOps1
      _ = W1 m ρ c (Proc.devRef .tc main_v17) := W2_of_ne m ρ c main_v17 (by decide)
      _ = _ := after0_v17 (W0 m ρ c)
  rw [h]
  exact shapeCast_apply _ shapeCasts_S100000_S100000x1 (ix2 r (0 : Fin 1)) (ix1 r) (by
    rw [Shape.rowMajor_val_two, Shape.rowMajor_val_one]; show r.val = r.val * 1 + 0; omega)
theorem V5_v26 (c : Dev nD) (j : Fin 128) :
    V5 m ρ c main_v26 (ix2 0 j) = Ideal.div (msArr m ρ c (ix3 0 0 j) + msArr m ρ c (ix3 1 0 j)) Cert.Gin.cnt := by
  have h : V5 m ρ c main_v26 = V3 m ρ c main_v26 :=
    calc V5 m ρ c main_v26
      _ = W4 m ρ c (Proc.devRef .tc main_v26) := by
            show StableHlo.after hostOps2 (W4 m ρ c) (Proc.devRef .tc main_v26) = _
            keeps hostOps2
      _ = V3 m ρ c main_v26 := (W4_arr m ρ c 1).trans (((dat1 (V3 m ρ) c).arrAt_in 1 rfl _).trans (A_eq1 (V3 m ρ) c 1))
  rw [h]; exact V3_v26 m ρ c j
theorem V5_v37 (c : Dev nD) (j : Fin 128) :
    V5 m ρ c main_v37 (ix2 0 j)
      = max (Ideal.div (vsArr m ρ c (ix3 0 0 j) + vsArr m ρ c (ix3 1 0 j)) Cert.Gin.cnt) Cert.Gin.zero := by
  have h := congrFun (after2_v37 (W4 m ρ c)) (ix2 0 j)
  rw [maximumf_apply, halves_apply,
    show W4 m ρ c (Proc.devRef .tc main_v27) = vsArr m ρ c from W4_arr m ρ c 2] at h
  exact h
theorem V5_v38 (c : Dev nD) (j : Fin 128) :
    V5 m ρ c main_v38 (ix2 0 j) = m ((c : Thread nD τ).loc main_arg9) (ix1 j) := by
  have h : V5 m ρ c main_v38 = shapeCast S1x128 (m ((c : Thread nD τ).loc main_arg9)) shapeCasts_S128_S1x128 := by
    rw [← W4_arg9 m ρ c]; exact after2_v38 (W4 m ρ c)
  rw [h]
  exact shapeCast_apply _ shapeCasts_S128_S1x128 (ix2 (0 : Fin 1) j) (ix1 j) (by
    rw [Shape.rowMajor_val_two, Shape.rowMajor_val_one]; show j.val = 0 * 128 + j.val; omega)
theorem V5_v39 (c : Dev nD) (j : Fin 128) :
    V5 m ρ c main_v39 (ix2 0 j) = m ((c : Thread nD τ).loc main_arg10) (ix1 j) := by
  have h : V5 m ρ c main_v39 = shapeCast S1x128 (m ((c : Thread nD τ).loc main_arg10)) shapeCasts_S128_S1x128 := by
    rw [← W4_arg10 m ρ c]; exact after2_v39 (W4 m ρ c)
  rw [h]
  exact shapeCast_apply _ shapeCasts_S128_S1x128 (ix2 (0 : Fin 1) j) (ix1 j) (by
    rw [Shape.rowMajor_val_two, Shape.rowMajor_val_one]; show j.val = 0 * 128 + j.val; omega)

/-! ## The program returns the sum of region 2's two halves -/

theorem W7_v45 (c : Dev nD) (g : Fin 256) (j : Fin 128) :
    W7 m ρ c (Proc.devRef .tc main_v45) (ix2 g j) = plArr m ρ c (ix3 0 g j) + plArr m ρ c (ix3 1 g j) := by
  have h := (congrFun (after3_v45 (W6 m ρ c)) (ix2 g j)).trans (twoHalves_apply _ g j)
  rw [show W6 m ρ c (Proc.devRef .tc main_v40) = plArr m ρ c from W6_arr m ρ c 6] at h
  exact h

end Cert.KernelIdeal.Val

end
-- ==== Proof.Spec2.lean ====
/-
  The two programs' results as functions of the per-node features H (after the three dense stages), the nodes'
  graph numbers B, and the scale and shift vectors — one with every column sum taken over all rows at once, the other
  with the sums taken per half and added — and the proof that they are the same function.
-/
import proofs.«421296_j1039382085872_3_alg».proof.Proof.Spec

noncomputable section

open Finset
open Idealize.ShloMosaic Idealize.ShloMosaic.ValueIdx

namespace Cert.Gin

abbrev SH : Shape := ⟨2, ![100000, 128]⟩
abbrev SB : Shape := ⟨2, ![100000, 1]⟩

/-! ## Sums per half, added -/

/-- The column mean from the two halves' sums. -/
def meanK (H : SH.Idx → EReal) (j : Fin 128) : EReal :=
  Ideal.div (shardSum (fun r => rowN H r j) 0 + shardSum (fun r => rowN H r j) 1) cnt

/-- The column variance from the two halves' sums of squared deviations, floored at zero. -/
def varK (H : SH.Idx → EReal) (j : Fin 128) : EReal :=
  max (Ideal.div (shardSum (fun r => sqdev (rowN H r j) (meanK H j)) 0 + shardSum (fun r => sqdev (rowN H r j) (meanK H j)) 1) cnt) zero

/-- The per-graph sums of the normalised features, from the two halves. -/
def outK (H : SH.Idx → EReal) (B : SB.Idx → BitVec 32) (gam bet : Fin 128 → EReal) (g : Fin 256) (j : Fin 128) : EReal :=
  shardSum (fun r => hot (batchN B r) g * bn (rowN H r j) (meanK H j) (varK H j) (gam j) (bet j)) 0
    + shardSum (fun r => hot (batchN B r) g * bn (rowN H r j) (meanK H j) (varK H j) (gam j) (bet j)) 1

/-! ## Sums over all rows at once -/

/-- Zero plus the sum over all rows. -/
def colSum (f : Fin 100000 → EReal) : EReal := zero + ∑ r : Fin 100000, f r

def meanR (H : SH.Idx → EReal) (j : Fin 128) : EReal := Ideal.div (colSum fun r => H (ix2 r j)) cnt

def varR (H : SH.Idx → EReal) (j : Fin 128) : EReal :=
  Ideal.div (colSum fun r => sqdev (H (ix2 r j)) (meanR H j)) cnt

def outR (H : SH.Idx → EReal) (B : SB.Idx → BitVec 32) (gam bet : Fin 128 → EReal) (g : Fin 256) (j : Fin 128) : EReal :=
  zero + ∑ r : Fin 100000, hot (B (ix2 r 0)) g * bn (H (ix2 r j)) (meanR H j) (varR H j) (gam j) (bet j)

/-! ## They agree -/

/-- The node count's word is the real number 100000. -/
theorem cnt_eq : cnt = ((100000 : ℝ) : EReal) := by
  unfold cnt
  simp [Ideal.ofBits, Ideal.ieee, -EReal.coe_mul]
  norm_num

/-- A sum over the first 100000 naturals of a function that agrees with one on `Fin 100000` is the sum over `Fin 100000`. -/
theorem sum_range_fin (φ : ℕ → EReal) (ψ : Fin 100000 → EReal) (h : ∀ r : Fin 100000, φ r.val = ψ r) :
    ∑ r ∈ range 100000, φ r = ∑ r : Fin 100000, ψ r := by
  rw [Finset.sum_range]
  exact Finset.sum_congr rfl fun r _ => h r

/-- The two halves' sums of a quantity read off the rows are zero plus the sum over all rows. -/
theorem shards_eq_colSum (φ : ℕ → EReal) (ψ : Fin 100000 → EReal) (h : ∀ r : Fin 100000, φ r.val = ψ r) :
    shardSum φ 0 + shardSum φ 1 = colSum ψ := by
  rw [shardSum_add, sum_range_fin φ ψ h]
  unfold colSum
  rw [zero_eq, zero_add]

theorem rowN_fin {K : ℕ} (H : (⟨2, ![100000, K]⟩ : Shape).Idx → EReal) (r : Fin 100000) (j : Fin K) :
    rowN H r.val j = H (ix2 r j) := by
  unfold rowN
  rw [dif_pos r.isLt]

theorem batchN_fin (B : SB.Idx → BitVec 32) (r : Fin 100000) : batchN B r.val = B (ix2 r 0) := by
  unfold batchN
  rw [dif_pos r.isLt]

theorem meanK_eq (H : SH.Idx → EReal) (j : Fin 128) : meanK H j = meanR H j := by
  unfold meanK meanR
  rw [shards_eq_colSum (fun r => rowN H r j) (fun r => H (ix2 r j)) fun r => rowN_fin H r j]

/-- A quotient by the node count of zero plus a sum of squares is nonnegative. -/
theorem varR_nonneg (H : SH.Idx → EReal) (j : Fin 128) : 0 ≤ varR H j := by
  unfold varR colSum
  rw [cnt_eq, Ideal.div_coe (by norm_num : (100000 : ℝ) ≠ 0), zero_eq, zero_add]
  have h1 : (0 : EReal) ≤ ∑ r : Fin 100000, sqdev (H (ix2 r j)) (meanR H j) :=
    Finset.sum_nonneg fun r _ => mul_self_nonneg' _
  have h2 : (0 : EReal) ≤ ((1 / 100000 : ℝ) : EReal) := by
    apply EReal.coe_nonneg.mpr; norm_num
  exact mul_nonneg h1 h2

theorem varK_eq (H : SH.Idx → EReal) (j : Fin 128) : varK H j = varR H j := by
  unfold varK
  rw [meanK_eq, shards_eq_colSum (fun r => sqdev (rowN H r j) (meanR H j)) (fun r => sqdev (H (ix2 r j)) (meanR H j))
    fun r => by rw [rowN_fin]]
  show max (varR H j) zero = varR H j
  rw [zero_eq]
  exact max_eq_left (varR_nonneg H j)

theorem outK_eq_outR (H : SH.Idx → EReal) (B : SB.Idx → BitVec 32) (gam bet : Fin 128 → EReal) (g : Fin 256) (j : Fin 128) :
    outK H B gam bet g j = outR H B gam bet g j := by
  unfold outK outR
  rw [meanK_eq, varK_eq]
  exact shards_eq_colSum _ _ fun r => by rw [rowN_fin, batchN_fin]

end Cert.Gin

end
-- ==== Proof.KValue.lean ====
/-
  The kernel-side program's result as a function of the launch memory: the regions' results chained through the host
  operations between them, then the two halves' accumulations recognised as the sums over all rows.
-/
import proofs.«421296_j1039382085872_3_alg».proof.Proof.KReg0
import proofs.«421296_j1039382085872_3_alg».proof.Proof.KReg1
import proofs.«421296_j1039382085872_3_alg».proof.Proof.KReg2
import proofs.«421296_j1039382085872_3_alg».proof.Proof.KHost
import proofs.«421296_j1039382085872_3_alg».proof.Proof.Spec2

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-- The per-node features as a function of the launch memory: the three dense stages on the features plus the
    neighbours' sum. -/
def Hk (c : Dev nD) : S100000x128.Idx → EReal :=
  Cert.Gin.mlp (m ((c : Thread nD τ).loc main_arg0))
    (aggK (m ((c : Thread nD τ).loc main_arg0)) (m ((c : Thread nD τ).loc main_arg1)))
    (m ((c : Thread nD τ).loc main_arg3)) (Cert.Mlp.vec (m ((c : Thread nD τ).loc main_arg4)))
    (m ((c : Thread nD τ).loc main_arg5)) (Cert.Mlp.vec (m ((c : Thread nD τ).loc main_arg6)))
    (m ((c : Thread nD τ).loc main_arg7)) (Cert.Mlp.vec (m ((c : Thread nD τ).loc main_arg8)))

/-- The graph numbers as one column. -/
def Bk (c : Dev nD) : S100000x1.Idx → BitVec 32 := fun i => m ((c : Thread nD τ).loc main_arg2) (ix1 (i 0))

/-- Region 0 computes the features from the launch memory. -/
theorem H0_eq (c : Dev nD) : H0 (V1 m ρ) c = Hk m c := by
  unfold H0 Hk
  rw [V1_v14 m ρ c, V1_v15 m ρ c, V1_v16 m ρ c]
  show Cert.Gin.mlp (V1 m ρ c main_arg0) (V1 m ρ c main_v13) (V1 m ρ c main_arg3) _ (V1 m ρ c main_arg5) _ (V1 m ρ c main_arg7) _ = _
  rw [V1_arg0 m ρ c, V1_v13 m ρ c, V1_arg3 m ρ c, V1_arg5 m ρ c, V1_arg7 m ρ c]

theorem hArr_eq (c : Dev nD) : hArr m ρ c = Hk m c :=
  (reg0_h (V1 m ρ) c).trans (H0_eq m ρ c)

/-- Region 0's half sums, over the features. -/
theorem ms_eq (c : Dev nD) (s : Fin 2) (j : Fin 128) :
    msArr m ρ c (ix3 s 0 j) = Cert.Gin.shardSum (fun r => Cert.Gin.rowN (Hk m c) r j) s.val := by
  show (dat0 (V1 m ρ) c).arrAt 9 cfg0.N (ix3 s 0 j) = _
  rw [reg0_sum (V1 m ρ) c s j, H0_eq m ρ c]

/-- The mean the host computes between regions 0 and 1. -/
theorem mean_eq (c : Dev nD) (j : Fin 128) :
    Ideal.div (msArr m ρ c (ix3 0 0 j) + msArr m ρ c (ix3 1 0 j)) Cert.Gin.cnt = Cert.Gin.meanK (Hk m c) j := by
  rw [ms_eq m ρ c 0 j, ms_eq m ρ c 1 j]
  rfl

/-- Region 1's half sums of squared deviations, over the features and their mean. -/
theorem vs_eq (c : Dev nD) (s : Fin 2) (j : Fin 128) :
    vsArr m ρ c (ix3 s 0 j)
      = Cert.Gin.shardSum (fun r => Cert.Gin.sqdev (Cert.Gin.rowN (Hk m c) r j) (Cert.Gin.meanK (Hk m c) j)) s.val := by
  show (dat1 (V3 m ρ) c).arrAt 2 cfg1.N (ix3 s 0 j) = _
  rw [reg1_sum (V3 m ρ) c s j]
  show Cert.Gin.shardSum (fun r => Cert.Gin.sqdev (Cert.Gin.rowN (V3 m ρ c main_v18_0) r j) (V3 m ρ c main_v26 (ix2 0 j))) s.val = _
  rw [V3_v18_0 m ρ c, hArr_eq m ρ c, V3_v26 m ρ c j, mean_eq m ρ c j]

/-- The floored variance the host computes between regions 1 and 2. -/
theorem var_eq (c : Dev nD) (j : Fin 128) :
    max (Ideal.div (vsArr m ρ c (ix3 0 0 j) + vsArr m ρ c (ix3 1 0 j)) Cert.Gin.cnt) Cert.Gin.zero
      = Cert.Gin.varK (Hk m c) j := by
  rw [vs_eq m ρ c 0 j, vs_eq m ρ c 1 j]
  rfl

/-- The graph numbers region 2 reads, at a natural row number. -/
theorem batch_eq (c : Dev nD) (r : ℕ) : Cert.Gin.batchN (V5 m ρ c main_v17) r = Cert.Gin.batchN (Bk m c) r := by
  unfold Cert.Gin.batchN
  split
  · rename_i hr; exact V5_v17 m ρ c ⟨r, hr⟩
  · rfl

/-- Region 2's half sums, over the features, their statistics and the graph numbers. -/
theorem pl_eq (c : Dev nD) (s : Fin 2) (g : Fin 256) (j : Fin 128) :
    plArr m ρ c (ix3 s g j)
      = Cert.Gin.shardSum (fun r => Cert.Gin.hot (Cert.Gin.batchN (Bk m c) r) g
          * Cert.Gin.bn (Cert.Gin.rowN (Hk m c) r j) (Cert.Gin.meanK (Hk m c) j) (Cert.Gin.varK (Hk m c) j)
              (Cert.Mlp.vec (m ((c : Thread nD τ).loc main_arg9)) j) (Cert.Mlp.vec (m ((c : Thread nD τ).loc main_arg10)) j)) s.val := by
  show (dat2 (V5 m ρ) c).arrAt 6 cfg2.N (ix3 s g j) = _
  rw [reg2_pool (V5 m ρ) c s g j]
  show Cert.Gin.shardSum (fun r => Cert.Gin.hot (Cert.Gin.batchN (V5 m ρ c main_v17) r) g
      * Cert.Gin.bn (Cert.Gin.rowN (V5 m ρ c main_v18_0) r j) (V5 m ρ c main_v26 (ix2 0 j)) (V5 m ρ c main_v37 (ix2 0 j))
          (V5 m ρ c main_v38 (ix2 0 j)) (V5 m ρ c main_v39 (ix2 0 j))) s.val = _
  rw [V5_v18_0 m ρ c, hArr_eq m ρ c, V5_v26 m ρ c j, mean_eq m ρ c j, V5_v37 m ρ c j, var_eq m ρ c j, V5_v38 m ρ c j,
    V5_v39 m ρ c j]
  exact congrArg (fun f => Cert.Gin.shardSum f s.val) (funext fun r => by rw [batch_eq m ρ c r]; rfl)

/-- The program's result at (g, j): the sums over all rows at once. -/
theorem kval (c : Dev nD) (g : Fin 256) (j : Fin 128) :
    W7 m ρ c (Proc.devRef .tc main_v45) (ix2 g j)
      = Cert.Gin.outR (Hk m c) (Bk m c) (Cert.Mlp.vec (m ((c : Thread nD τ).loc main_arg9)))
          (Cert.Mlp.vec (m ((c : Thread nD τ).loc main_arg10))) g j := by
  rw [W7_v45 m ρ c g j, pl_eq m ρ c 0 g j, pl_eq m ρ c 1 g j, ← Cert.Gin.outK_eq_outR]
  rfl

end Cert.KernelIdeal.Val

end
-- ==== Proof.RRun.lean ====
/-
  The reference program as one straight line of host operations, and its run: every buffer ends at the operations'
  fold over the launch contents.
-/
import proofs.«421296_j1039382085872_3_alg».proof.ReferenceIdeal
import proofs.«421296_j1039382085872_3_alg».proof.Proof.Gen.ReferenceIdeal
import Idealize.ShloMosaic.Lib.StableHlo.Run

noncomputable section

open Idealize.ShloMosaic Idealize.ShloMosaic.TcCoe Idealize.SL.Sem Idealize.ShloMosaic.StableHlo

namespace Cert.ReferenceIdeal.Val

open Cert.ReferenceIdeal Cert.ReferenceIdeal.Gen

variable {F : FTy → Type} [FloatOps F]

/-- The reference's operations in order, each called function's operations listed at its call over that call's buffers
    (a rectifier is a zero, its broadcast and the maximum; the variance is twenty operations and inside it the selection
    that guards a zero divisor, three). The first stretch: the neighbours' sum and the three dense stages, up to the
    per-node features. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg3 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v18) main_call0.v0 main_call0.v1 maximumf,
    StableHlo.binary main_v19 main_arg5 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v23) main_call1.v0 main_call1.v1 maximumf,
    StableHlo.binary main_v24 main_arg7 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v27 main_v28 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v28) main_call2.v0 main_call2.v1 maximumf ]

/-- The second stretch: from the per-node features to the result — the column means, the variance, the normalisation,
    the sum per graph. -/
abbrev opsB : List (HloOp τ sig (Elt F)) :=
  [ StableHlo.nullary main_cst_1 (constant S_ .f32 0x00000000#32),
    StableHlo.binary main_v29 main_cst_1 main_v30 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call3.cst (constant S_ .f32 0x00000000#32),
    StableHlo.TRef.binary (.of main_v29) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v29) main_call3.v4 main_call3.v5 subf,
    StableHlo.TRef.binary main_call3.v5 main_call3.v5 main_call3.v6 mulf,
    StableHlo.TRef.unary (.of main_c_3) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v32 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v35 main_v36 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v37 (broadcastInDim S128 ![] bcast_S_S128 : (⟨S_, .f32⟩ : BufTy).Contents (Elt F) → (⟨S128, .f32⟩ : BufTy).Contents (Elt F)),
    StableHlo.binary main_v33 main_v37 main_v38 (addf : (⟨S128, .f32⟩ : BufTy).Contents (Elt F) → (⟨S128, .f32⟩ : BufTy).Contents (Elt F) → (⟨S128, .f32⟩ : BufTy).Contents (Elt F)),
    StableHlo.unary main_v38 main_v39 (Host.rsqrt : (⟨S128, .f32⟩ : BufTy).Contents (Elt F) → (⟨S128, .f32⟩ : BufTy).Contents (Elt F)),
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v41 main_v42 (mulf : (⟨S100000x128, .f32⟩ : BufTy).Contents (Elt F) → (⟨S100000x128, .f32⟩ : BufTy).Contents (Elt F) → (⟨S100000x128, .f32⟩ : BufTy).Contents (Elt F)),
    StableHlo.unary main_arg9 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (mulf : (⟨S100000x128, .f32⟩ : BufTy).Contents (Elt F) → (⟨S100000x128, .f32⟩ : BufTy).Contents (Elt F) → (⟨S100000x128, .f32⟩ : BufTy).Contents (Elt F)),
    StableHlo.unary main_arg10 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x00000000#32),
    StableHlo.unary main_cst_5 main_v49 (broadcastInDim S256x128 ![] bcast_S_S256x128 : (⟨S_, .f32⟩ : BufTy).Contents (Elt F) → (⟨S256x128, .f32⟩ : BufTy).Contents (Elt F)),
    StableHlo.unary main_arg2 main_v50 (broadcastInDim S100000x1 ![0] bcast_S100000_S100000x1_0 : (⟨S100000, .i32⟩ : BufTy).Contents (Elt F) → (⟨S100000x1, .i32⟩ : BufTy).Contents (Elt F)),
    StableHlo.ternary main_v49 main_v50 main_v48 main_v51 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)) ]

/-- The whole program: the two stretches in a row. -/
abbrev ops : List (HloOp τ sig (Elt F)) := opsA ++ opsB

set_option maxRecDepth 4096 in
set_option maxHeartbeats 4000000 in
/-- The program is that straight line. -/
theorem main_eq (c : Dev nD) : main (F := F) c = seq ops := by
  -- the called bodies unfolded at their calls and the two appended lists written as one, both sides are the same chain
  -- of eighty-seven steps once sequencing is re-associated
  simp only [main, main_part0, main_part1, fn_relu.body, fn_var.body, fn_where.body, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., unary_bufs_sub .., ternary_bufs_sub ..⟩

/-- Every weakly fair execution of the reference terminates, and every final state has each buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Val

end
-- ==== Proof.RArgs.lean ====
/-
  The reference's operations write none of the argument buffers: each argument ends as launched.
-/
import proofs.«421296_j1039382085872_3_alg».proof.Proof.RRun

set_option maxRecDepth 16384

noncomputable section

open Idealize.ShloMosaic Idealize.ShloMosaic.TcCoe Idealize.SL.Sem Idealize.ShloMosaic.StableHlo

namespace Cert.ReferenceIdeal.Val

open Cert.ReferenceIdeal Cert.ReferenceIdeal.Gen

variable {F : FTy → Type} [FloatOps F]

theorem ops_arg0 (W : Valuation τ sig (Elt F)) :
    after (ops (F := F)) W (Proc.devRef .tc main_arg0) = W (Proc.devRef .tc main_arg0) :=
  after_of_forall_not_mem (b := Proc.devRef .tc main_arg0) _ _ (List.forall_iff_forall_mem.mp (by
    simp only [ops, opsA, opsB, List.cons_append, List.nil_append, List.Forall, nullary_writes, unary_writes, binary_writes,
      ternary_writes, reshape_writes, Finset.mem_singleton]
    repeat' apply And.intro
    all_goals exact devRef_ne_of_ne (by decide)))

theorem ops_arg1 (W : Valuation τ sig (Elt F)) :
    after (ops (F := F)) W (Proc.devRef .tc main_arg1) = W (Proc.devRef .tc main_arg1) :=
  after_of_forall_not_mem (b := Proc.devRef .tc main_arg1) _ _ (List.forall_iff_forall_mem.mp (by
    simp only [ops, opsA, opsB, List.cons_append, List.nil_append, List.Forall, nullary_writes, unary_writes, binary_writes,
      ternary_writes, reshape_writes, Finset.mem_singleton]
    repeat' apply And.intro
    all_goals exact devRef_ne_of_ne (by decide)))

theorem ops_arg2 (W : Valuation τ sig (Elt F)) :
    after (ops (F := F)) W (Proc.devRef .tc main_arg2) = W (Proc.devRef .tc main_arg2) :=
  after_of_forall_not_mem (b := Proc.devRef .tc main_arg2) _ _ (List.forall_iff_forall_mem.mp (by
    simp only [ops, opsA, opsB, List.cons_append, List.nil_append, List.Forall, nullary_writes, unary_writes, binary_writes,
      ternary_writes, reshape_writes, Finset.mem_singleton]
    repeat' apply And.intro
    all_goals exact devRef_ne_of_ne (by decide)))

theorem ops_arg3 (W : Valuation τ sig (Elt F)) :
    after (ops (F := F)) W (Proc.devRef .tc main_arg3) = W (Proc.devRef .tc main_arg3) :=
  after_of_forall_not_mem (b := Proc.devRef .tc main_arg3) _ _ (List.forall_iff_forall_mem.mp (by
    simp only [ops, opsA, opsB, List.cons_append, List.nil_append, List.Forall, nullary_writes, unary_writes, binary_writes,
      ternary_writes, reshape_writes, Finset.mem_singleton]
    repeat' apply And.intro
    all_goals exact devRef_ne_of_ne (by decide)))

theorem ops_arg4 (W : Valuation τ sig (Elt F)) :
    after (ops (F := F)) W (Proc.devRef .tc main_arg4) = W (Proc.devRef .tc main_arg4) :=
  after_of_forall_not_mem (b := Proc.devRef .tc main_arg4) _ _ (List.forall_iff_forall_mem.mp (by
    simp only [ops, opsA, opsB, List.cons_append, List.nil_append, List.Forall, nullary_writes, unary_writes, binary_writes,
      ternary_writes, reshape_writes, Finset.mem_singleton]
    repeat' apply And.intro
    all_goals exact devRef_ne_of_ne (by decide)))

theorem ops_arg5 (W : Valuation τ sig (Elt F)) :
    after (ops (F := F)) W (Proc.devRef .tc main_arg5) = W (Proc.devRef .tc main_arg5) :=
  after_of_forall_not_mem (b := Proc.devRef .tc main_arg5) _ _ (List.forall_iff_forall_mem.mp (by
    simp only [ops, opsA, opsB, List.cons_append, List.nil_append, List.Forall, nullary_writes, unary_writes, binary_writes,
      ternary_writes, reshape_writes, Finset.mem_singleton]
    repeat' apply And.intro
    all_goals exact devRef_ne_of_ne (by decide)))

theorem ops_arg6 (W : Valuation τ sig (Elt F)) :
    after (ops (F := F)) W (Proc.devRef .tc main_arg6) = W (Proc.devRef .tc main_arg6) :=
  after_of_forall_not_mem (b := Proc.devRef .tc main_arg6) _ _ (List.forall_iff_forall_mem.mp (by
    simp only [ops, opsA, opsB, List.cons_append, List.nil_append, List.Forall, nullary_writes, unary_writes, binary_writes,
      ternary_writes, reshape_writes, Finset.mem_singleton]
    repeat' apply And.intro
    all_goals exact devRef_ne_of_ne (by decide)))

theorem ops_arg7 (W : Valuation τ sig (Elt F)) :
    after (ops (F := F)) W (Proc.devRef .tc main_arg7) = W (Proc.devRef .tc main_arg7) :=
  after_of_forall_not_mem (b := Proc.devRef .tc main_arg7) _ _ (List.forall_iff_forall_mem.mp (by
    simp only [ops, opsA, opsB, List.cons_append, List.nil_append, List.Forall, nullary_writes, unary_writes, binary_writes,
      ternary_writes, reshape_writes, Finset.mem_singleton]
    repeat' apply And.intro
    all_goals exact devRef_ne_of_ne (by decide)))

theorem ops_arg8 (W : Valuation τ sig (Elt F)) :
    after (ops (F := F)) W (Proc.devRef .tc main_arg8) = W (Proc.devRef .tc main_arg8) :=
  after_of_forall_not_mem (b := Proc.devRef .tc main_arg8) _ _ (List.forall_iff_forall_mem.mp (by
    simp only [ops, opsA, opsB, List.cons_append, List.nil_append, List.Forall, nullary_writes, unary_writes, binary_writes,
      ternary_writes, reshape_writes, Finset.mem_singleton]
    repeat' apply And.intro
    all_goals exact devRef_ne_of_ne (by decide)))

theorem ops_arg9 (W : Valuation τ sig (Elt F)) :
    after (ops (F := F)) W (Proc.devRef .tc main_arg9) = W (Proc.devRef .tc main_arg9) :=
  after_of_forall_not_mem (b := Proc.devRef .tc main_arg9) _ _ (List.forall_iff_forall_mem.mp (by
    simp only [ops, opsA, opsB, List.cons_append, List.nil_append, List.Forall, nullary_writes, unary_writes, binary_writes,
      ternary_writes, reshape_writes, Finset.mem_singleton]
    repeat' apply And.intro
    all_goals exact devRef_ne_of_ne (by decide)))

theorem ops_arg10 (W : Valuation τ sig (Elt F)) :
    after (ops (F := F)) W (Proc.devRef .tc main_arg10) = W (Proc.devRef .tc main_arg10) :=
  after_of_forall_not_mem (b := Proc.devRef .tc main_arg10) _ _ (List.forall_iff_forall_mem.mp (by
    simp only [ops, opsA, opsB, List.cons_append, List.nil_append, List.Forall, nullary_writes, unary_writes, binary_writes,
      ternary_writes, reshape_writes, Finset.mem_singleton]
    repeat' apply And.intro
    all_goals exact devRef_ne_of_ne (by decide)))

end Cert.ReferenceIdeal.Val

end
-- ==== Proof.RValueA.lean ====
/-
  The reference's first stretch read back: the neighbours' sum kept as one folded term, then the three dense stages on every row.
-/
import proofs.«421296_j1039382085872_3_alg».proof.Proof.RRun
import proofs.«421296_j1039382085872_3_alg».proof.Proof.Spec
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.StableHlo Idealize.ShloMosaic.ValueIdx

namespace Cert.ReferenceIdeal.Val

open Cert.ReferenceIdeal Cert.ReferenceIdeal.Gen

/-- The neighbours' sum as the host computes it from the features and the edge list (a gather of the source rows,
    scattered and added at the destination rows); kept folded: the other program computes the same term. -/
def aggR (x : Vec Ideal S100000x64 .f32) (ei : Vec Ideal S2x1600000 .i32) : Vec Ideal S100000x64 .f32 :=
  Host.scatterAdd (F := Ideal) scatter_S100000x64_S1600000x1_S1600000x64_1_0_0_1
    (broadcastInDim S100000x64 ![] bcast_S_S100000x64 (constant S_ .f32 0x00000000#32))
    (broadcastInDim S1600000x1 ![0] bcast_S1600000_S1600000x1_0
      (shapeCast S1600000 (extractStridedSlice S1x1600000 ![1, 0] ei slices_S2x1600000_S1x1600000_1_0)
        shapeCasts_S1x1600000_S1600000))
    (Host.gather gather_S100000x64_S1600000x1_S1600000x64_1_0_n_n_0_1_164 x
      (broadcastInDim S1600000x1 ![0] bcast_S1600000_S1600000x1_0
        (select
          (cmpi .slt
            (shapeCast S1600000 (extractStridedSlice S1x1600000 ![0, 0] ei slices_S2x1600000_S1x1600000_0_0)
              shapeCasts_S1x1600000_S1600000)
            (broadcastInDim S1600000 ![] bcast_S_S1600000 (constantI S_ 32 0#32)))
          (addi
            (shapeCast S1600000 (extractStridedSlice S1x1600000 ![0, 0] ei slices_S2x1600000_S1x1600000_0_0)
              shapeCasts_S1x1600000_S1600000)
            (broadcastInDim S1600000 ![] bcast_S_S1600000 (constantI S_ 32 100000#32)))
          (shapeCast S1600000 (extractStridedSlice S1x1600000 ![0, 0] ei slices_S2x1600000_S1x1600000_0_0)
            shapeCasts_S1x1600000_S1600000))))

/-- Two stretches run one after the other. -/
theorem after_append (A B : List (HloOp τ sig (Elt Ideal))) (W : Valuation τ sig (Elt Ideal)) :
    after (A ++ B) W = after B (after A W) := by
  induction A generalizing W with
  | nil => rfl
  | cons op A ih => simp only [List.cons_append, after_cons, ih]

/-- A dense stage as the host spells it: a plain product, the bias broadcast in two steps and added, the maximum with a
    broadcast zero. -/
private theorem host_dense {N K H : ℕ} (d : DotDims ⟨2, ![N, K]⟩ ⟨2, ![K, H]⟩ ⟨2, ![N, H]⟩) (hd : d = DotDims.plain N K H)
    (h0 : (⟨0, ![]⟩ : Shape).BroadcastsInDim ⟨2, ![N, H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ .f32) (W : FVec Ideal ⟨2, ![K, H]⟩ .f32) (b : FVec Ideal ⟨1, ![H]⟩ .f32) :
    maximumf (addf (Host.dotGeneral d none a W)
        (broadcastInDim (⟨2, ![N, H]⟩ : Shape) ![0, 1] h2 (broadcastInDim (⟨2, ![1, H]⟩ : Shape) ![1] h1 b)))
        (broadcastInDim (⟨2, ![N, H]⟩ : Shape) ![] h0 (constant (⟨0, ![]⟩ : Shape) .f32 0x00000000#32))
      = Cert.Gin.dense a W (Cert.Mlp.vec b) := by
  subst hd
  funext i
  obtain ⟨p, q, rfl⟩ : ∃ (p : Fin N) (q : Fin H), i = ix2 p q := ⟨i 0, i 1, eq_ix2 i⟩
  simp only [maximumf_apply, addf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact Cert.Mlp.plain_sum a W (ix2 p q)
  rw [Cert.Mlp.bcast_two h1 h2 b p q, hm]
  rfl

attribute [local irreducible] Host.gather Host.scatterAdd in
/-- The first stretch leaves the three dense stages of every row in the features' buffer. -/
theorem ref_h (W : Valuation τ sig (Elt Ideal)) :
    after (opsA (F := Ideal)) W (main_v29 : DevRef τ sig)
      = Cert.Gin.mlp (W (main_arg0 : DevRef τ sig)) (aggR (W (main_arg0 : DevRef τ sig)) (W (main_arg1 : DevRef τ sig)))
          (W (main_arg3 : DevRef τ sig)) (Cert.Mlp.vec (W (main_arg4 : DevRef τ sig)))
          (W (main_arg5 : DevRef τ sig)) (Cert.Mlp.vec (W (main_arg6 : DevRef τ sig)))
          (W (main_arg7 : DevRef τ sig)) (Cert.Mlp.vec (W (main_arg8 : DevRef τ sig))) := by
  after_results_simp
  simp only [TRef.ofBuf, TRef.toBuf, cast_eq]
  rw [host_dense dot_S100000x128_S128x128_S100000x128_1_0_0_1_n_n rfl,
    host_dense dot_S100000x128_S128x128_S100000x128_1_0_0_1_n_n rfl,
    host_dense dot_S100000x64_S64x128_S100000x128_1_0_0_1_n_n rfl]
  rfl

/-- The first stretch does not write the graph numbers, the scale or the shift. -/
theorem opsA_arg2 (W : Valuation τ sig (Elt Ideal)) :
    after (opsA (F := Ideal)) W (main_arg2 : DevRef τ sig) = W (main_arg2 : DevRef τ sig) := by
  after_results_simp
theorem opsA_arg9 (W : Valuation τ sig (Elt Ideal)) :
    after (opsA (F := Ideal)) W (main_arg9 : DevRef τ sig) = W (main_arg9 : DevRef τ sig) := by
  after_results_simp
theorem opsA_arg10 (W : Valuation τ sig (Elt Ideal)) :
    after (opsA (F := Ideal)) W (main_arg10 : DevRef τ sig) = W (main_arg10 : DevRef τ sig) := by
  after_results_simp

end Cert.ReferenceIdeal.Val

end
-- ==== Proof.RValueB.lean ====
/-
  The reference's second stretch read index by index: the column statistics over all rows at once, the normalisation, and the sum per graph.
-/
import proofs.«421296_j1039382085872_3_alg».proof.Proof.RRun
import proofs.«421296_j1039382085872_3_alg».proof.Proof.Spec2
import Idealize.ShloMosaic.Lib.Pipeline.Value
import Idealize.ShloMosaic.Lib.IdealHost
import Idealize.ShloMosaic.PureOps.Ideal.Laws

set_option maxRecDepth 16384

noncomputable section

open Idealize.ShloMosaic Idealize.ShloMosaic.TcCoe Idealize.SL.Sem Idealize.ShloMosaic.StableHlo Idealize.ShloMosaic.ValueIdx

namespace Cert.ReferenceIdeal.Val

open Cert.ReferenceIdeal Cert.ReferenceIdeal.Gen

open Cert.Gin

/-! ## The sum per graph: where an update row lands -/

/-- The dimension numbers of the sum per graph: row r of the updates goes to the row of the result that the r-th graph
    number names, column by column. -/
private abbrev sd := scatter_S256x128_S100000x1_S100000x128_1_0_0_1

/-- On the row axis the start of update (r, c) is the graph number of row r, read signed. -/
private theorem start0 (r : Fin 100000) (c : Fin 128) (idx : IVec S100000x1 32) :
    sd.start (ix2 r c) idx (0 : Fin 2) = (idx (ix2 r 0)).toInt := by
  unfold ScatterDims.start
  rw [dif_pos (show (0 : Fin 2) ∈ sd.scatterDimsToOperandDims from List.mem_singleton.mpr rfl)]
  refine congrArg (fun i => (idx i).toInt) ?_
  funext b; refine Fin.ext ?_
  match b with
  | ⟨0, _⟩ => rfl
  | ⟨1, _⟩ => rfl

/-- On the column axis the start is zero. -/
private theorem start1 (r : Fin 100000) (c : Fin 128) (idx : IVec S100000x1 32) :
    sd.start (ix2 r c) idx (1 : Fin 2) = 0 := by
  rfl

/-- On the row axis the window coordinate is zero. -/
private theorem window0 (r : Fin 100000) (c : Fin 128) :
    sd.window (ix2 r c) (0 : Fin 2) = 0 := by
  rfl

/-- On the column axis the window coordinate of update (r, c) is c. -/
private theorem window1 (r : Fin 100000) (c : Fin 128) :
    sd.window (ix2 r c) (1 : Fin 2) = c.val := by
  rfl

/-- Update (r, c) lands at (g, j) exactly when the graph number of row r, read signed, is g, and c = j. -/
private theorem resultIdx_iff (r : Fin 100000) (c : Fin 128) (idx : IVec S100000x1 32) (g : Fin 256) (j : Fin 128) :
    sd.resultIdx? (ix2 r c) idx = some (ix2 g j) ↔ (idx (ix2 r 0)).toInt = (g.val : Int) ∧ c = j := by
  unfold ScatterDims.resultIdx?
  split
  · rename_i h
    have h0 := h (0 : Fin 2)
    rw [start0, window0] at h0
    constructor
    · intro he
      have he' := Option.some.inj he
      have e0 := congrArg (fun f => (f (0 : Fin 2)).val) he'
      have e1 := congrArg (fun f => (f (1 : Fin 2)).val) he'
      simp only [start0, window0, start1, window1] at e0 e1
      refine ⟨?_, Fin.ext ?_⟩
      · have : ((ix2 g j : S256x128.Idx) (0 : Fin 2)).val = g.val := rfl
        omega
      · have : ((ix2 g j : S256x128.Idx) (1 : Fin 2)).val = j.val := rfl
        omega
    · rintro ⟨hg, rfl⟩
      refine congrArg some (funext fun a => Fin.ext ?_)
      match a with
      | ⟨0, _⟩ =>
        show (sd.start (ix2 r c) idx (0 : Fin 2) + ((sd.window (ix2 r c) (0 : Fin 2) : ℕ) : Int)).toNat = g.val
        rw [start0, window0]; omega
      | ⟨1, _⟩ =>
        show (sd.start (ix2 r c) idx (1 : Fin 2) + ((sd.window (ix2 r c) (1 : Fin 2) : ℕ) : Int)).toNat = c.val
        rw [start1, window1]; omega
  · rename_i h
    constructor
    · intro he; exact absurd he (by simp)
    · rintro ⟨hg, rfl⟩
      exfalso; apply h
      intro a
      match a with
      | ⟨0, _⟩ =>
        show 0 ≤ sd.start (ix2 r c) idx (0 : Fin 2) + ((sd.window (ix2 r c) (0 : Fin 2) : ℕ) : Int) ∧
          sd.start (ix2 r c) idx (0 : Fin 2) + ((sd.window (ix2 r c) (0 : Fin 2) : ℕ) : Int) < ((256 : ℕ) : Int)
        rw [start0, window0]; have := g.isLt; omega
      | ⟨1, _⟩ =>
        show 0 ≤ sd.start (ix2 r c) idx (1 : Fin 2) + ((sd.window (ix2 r c) (1 : Fin 2) : ℕ) : Int) ∧
          sd.start (ix2 r c) idx (1 : Fin 2) + ((sd.window (ix2 r c) (1 : Fin 2) : ℕ) : Int) < ((128 : ℕ) : Int)
        rw [start1, window1]; have := c.isLt; omega

/-- A 32-bit word read signed is g < 256 exactly when it is the word of g. -/
private theorem toInt_eq_iff (w : BitVec 32) (g : Fin 256) : w.toInt = (g.val : Int) ↔ w = BitVec.ofNat 32 g.val := by
  have hw := w.isLt
  have hg := g.isLt
  rw [BitVec.toInt_eq_toNat_cond, ← BitVec.toNat_inj, BitVec.toNat_ofNat]
  constructor
  · intro h; split at h <;> omega
  · intro h; split <;> omega

/-- The sum per graph at (g, j): the operand's entry plus the sum over the rows of the indicator that the row's graph is g
    times the row's entry in column j. -/
private theorem scatter_apply (x : FVec Ideal S256x128 .f32) (idx : IVec S100000x1 32) (upd : FVec Ideal S100000x128 .f32)
    (g : Fin 256) (j : Fin 128) :
    Host.scatterAdd sd x idx upd (ix2 g j) = x (ix2 g j) + ∑ r : Fin 100000, hot (idx (ix2 r 0)) g * upd (ix2 r j) := by
  show x (ix2 g j) + ∑ u ∈ Finset.univ.filter (fun u => sd.resultIdx? u idx = some (ix2 g j)), upd u = _
  refine congrArg (x (ix2 g j) + ·) ?_
  rw [Finset.sum_filter, sum_idx2]
  refine Finset.sum_congr rfl fun r _ => ?_
  simp only [resultIdx_iff, toInt_eq_iff]
  unfold hot
  by_cases hw : idx (ix2 r 0) = BitVec.ofNat 32 g.val
  · simp only [hw, true_and, if_true, one_mul]
    rw [Finset.sum_ite_eq']; simp
  · simp only [hw, false_and, if_false, zero_mul, Finset.sum_const_zero]

/-! ## Broadcasts read at an index -/

/-- A one-row matrix broadcast down the rows, read at (p, q), is its entry q. -/
private theorem bcast_rows {N H : ℕ} (h2 : (⟨2, ![1, H]⟩ : Shape).BroadcastsInDim ⟨2, ![N, H]⟩ ![0, 1])
    (x : (⟨2, ![1, H]⟩ : Shape).Idx → EReal) (p : Fin N) (q : Fin H) :
    broadcastInDim (⟨2, ![N, H]⟩ : Shape) ![0, 1] h2 x (ix2 p q) = x (ix2 0 q) := by
  refine broadcastInDim_apply ![0, 1] h2 _ (ix2 p q) (ix2 0 q) fun a => ?_
  match a with
  | ⟨0, _⟩ => simp
  | ⟨1, _⟩ =>
    show q.val = if H = 1 then 0 else q.val
    split
    · rename_i h; have := q.isLt; omega
    · rfl

/-- A vector as a one-row matrix, read at (0, q), is its entry q. -/
private theorem bcast_vec_row {H : ℕ} (h1 : (⟨1, ![H]⟩ : Shape).BroadcastsInDim ⟨2, ![1, H]⟩ ![1])
    (x : (⟨1, ![H]⟩ : Shape).Idx → EReal) (q : Fin H) :
    broadcastInDim (⟨2, ![1, H]⟩ : Shape) ![1] h1 x (ix2 0 q) = x (ix1 q) := by
  refine broadcastInDim_apply ![1] h1 x (ix2 0 q) (ix1 q) fun a => ?_
  match a with
  | ⟨0, _⟩ =>
    show q.val = if H = 1 then 0 else q.val
    split
    · rename_i h; have := q.isLt; omega
    · rfl

/-- A vector of words as a one-column matrix, read at (r, 0), is its entry r. -/
private theorem bcast_col {N : ℕ} (h : (⟨1, ![N]⟩ : Shape).BroadcastsInDim ⟨2, ![N, 1]⟩ ![0])
    (x : (⟨1, ![N]⟩ : Shape).Idx → BitVec 32) (r : Fin N) :
    broadcastInDim (⟨2, ![N, 1]⟩ : Shape) ![0] h x (ix2 r 0) = x (ix1 r) := by
  refine broadcastInDim_apply ![0] h x (ix2 r 0) (ix1 r) fun a => ?_
  match a with
  | ⟨0, _⟩ =>
    show r.val = if N = 1 then 0 else r.val
    split
    · rename_i h; have := r.isLt; omega
    · rfl

/-! ## The column statistics -/

/-- The number of rows as a real number. -/
private theorem cnt_real : Ideal.ofBits .f32 0x47C35000#32 = ((100000 : ℝ) : EReal) := by
  simp [Ideal.ofBits, Ideal.ieee, -EReal.coe_mul]; norm_num

/-- The column sum from zero at column j. -/
private theorem colsum_apply (h' : S100000x128.ReducesTo [0] S128) (hu : 0 < S_.numel) (H : FVec Ideal S100000x128 .f32) (j : Fin 128) :
    Host.reduceAdd H (constant S_ .f32 0x00000000#32) h' hu (ix1 j) = colSum fun r => H (ix2 r j) := by
  rw [hostReduceAdd_apply]
  refine (Ideal.hostReduceAdd_single h' (by decide) H _ (ix1 j)).trans ?_
  unfold colSum
  refine congrArg₂ (· + ·) rfl (Finset.sum_congr rfl fun r _ => congrArg H ?_)
  funext a
  match a with
  | ⟨0, _⟩ => rfl
  | ⟨1, _⟩ => rfl

/-- The variance's divisor, the number of rows minus the integer zero converted, is the number of rows. -/
private theorem nsub_apply :
    (subf (constant (F := Ideal) S_ .f32 0x47C35000#32) (sitofp .f32 (constantI S_ 32 0#32))) ix0 = cnt := by
  show Ideal.ofBits .f32 0x47C35000#32 - (((0#32 : BitVec 32).toInt : ℝ) : EReal) = cnt
  simp [cnt]

/-- The number of rows is positive. -/
private theorem cnt_pos : (0 : EReal) < cnt := by
  unfold cnt; rw [cnt_real]; exact_mod_cast (by norm_num : (0 : ℝ) < 100000)

/-- The variance's guard, divisor greater than zero, holds. -/
private theorem guard_apply :
    cmpf .ogt (subf (constant (F := Ideal) S_ .f32 0x47C35000#32) (sitofp .f32 (constantI S_ 32 0#32)))
      (constant S_ .f32 0x00000000#32) ix0 = 1#1 := by
  rw [cmpf_apply, nsub_apply, constant_apply, Ideal.ofBits_zero_f32, Ideal.cmpf_def]
  unfold Ideal.cmp
  simp [cnt_pos]

/-- The column mean at column j. -/
private theorem mean_apply (h' : S100000x128.ReducesTo [0] S128) (hu : 0 < S_.numel) (h0 : S_.BroadcastsInDim S128 ![])
    (H : FVec Ideal S100000x128 .f32) (j : Fin 128) :
    Host.divf (Host.reduceAdd H (constant S_ .f32 0x00000000#32) h' hu)
      (broadcastInDim S128 ![] h0 (constant S_ .f32 0x47C35000#32)) (ix1 j) = meanR H j := by
  rw [hostDivf_apply, colsum_apply, broadcastInDim_scalar_apply]; rfl

/-- The column mean as the variance spells it (a one-row matrix broadcast down the rows), at (r, j). -/
private theorem meanRow_apply (h' : S100000x128.ReducesTo [0] S128) (hu : 0 < S_.numel) (h1 : S128.BroadcastsInDim S1x128 ![1])
    (h0 : S_.BroadcastsInDim S1x128 ![]) (h2 : S1x128.BroadcastsInDim S100000x128 ![0, 1])
    (H : FVec Ideal S100000x128 .f32) (r : Fin 100000) (j : Fin 128) :
    broadcastInDim S100000x128 ![0, 1] h2
      (Host.divf (broadcastInDim S1x128 ![1] h1 (Host.reduceAdd H (constant S_ .f32 0x00000000#32) h' hu))
        (broadcastInDim S1x128 ![] h0 (constant S_ .f32 0x47C35000#32))) (ix2 r j) = meanR H j := by
  rw [bcast_rows, hostDivf_apply, bcast_vec_row, colsum_apply, broadcastInDim_scalar_apply]; rfl

/-- The guarded quotient of a column sum by the number of rows takes the quotient. -/
private theorem var_apply (h' : S100000x128.ReducesTo [0] S128) (hu : 0 < S_.numel) (h0 : S_.BroadcastsInDim S128 ![])
    (D2 : FVec Ideal S100000x128 .f32) (nanv : FVec Ideal S128 .f32) (j : Fin 128) :
    select (broadcastInDim S128 ![] h0 (cmpf .ogt (subf (constant (F := Ideal) S_ .f32 0x47C35000#32) (sitofp .f32 (constantI S_ 32 0#32)))
        (constant S_ .f32 0x00000000#32)))
      (Host.divf (Host.reduceAdd D2 (constant S_ .f32 0x00000000#32) h' hu)
        (broadcastInDim S128 ![] h0 (subf (constant (F := Ideal) S_ .f32 0x47C35000#32) (sitofp .f32 (constantI S_ 32 0#32)))))
      nanv (ix1 j)
    = Ideal.div (colSum fun r => D2 (ix2 r j)) cnt := by
  rw [select_apply, broadcastInDim_scalar_apply, guard_apply, select_one, hostDivf_apply, colsum_apply,
    broadcastInDim_scalar_apply, nsub_apply]

/-- The host's reciprocal square root at an index. -/
private theorem hostRsqrt_apply {s : Shape} {φ : FTy} (x : FVec Ideal s φ) (i : s.Idx) : Host.rsqrt x i = Ideal.rsqrt (x i) := rfl

/-- The column variance at column j: the mean of the squared deviations from the column mean. -/
private theorem varV_apply (h' : S100000x128.ReducesTo [0] S128) (hu : 0 < S_.numel) (h0 : S_.BroadcastsInDim S128 ![])
    (h1 : S128.BroadcastsInDim S1x128 ![1]) (h0r : S_.BroadcastsInDim S1x128 ![])
    (h2 : S1x128.BroadcastsInDim S100000x128 ![0, 1])
    (H : FVec Ideal S100000x128 .f32) (nanv : FVec Ideal S128 .f32) (j : Fin 128) :
    select (broadcastInDim S128 ![] h0 (cmpf .ogt (subf (constant (F := Ideal) S_ .f32 0x47C35000#32) (sitofp .f32 (constantI S_ 32 0#32)))
        (constant S_ .f32 0x00000000#32)))
      (Host.divf
        (Host.reduceAdd
          (mulf
            (subf H (broadcastInDim S100000x128 ![0, 1] h2
              (Host.divf (broadcastInDim S1x128 ![1] h1 (Host.reduceAdd H (constant S_ .f32 0x00000000#32) h' hu))
                (broadcastInDim S1x128 ![] h0r (constant S_ .f32 0x47C35000#32)))))
            (subf H (broadcastInDim S100000x128 ![0, 1] h2
              (Host.divf (broadcastInDim S1x128 ![1] h1 (Host.reduceAdd H (constant S_ .f32 0x00000000#32) h' hu))
                (broadcastInDim S1x128 ![] h0r (constant S_ .f32 0x47C35000#32))))))
          (constant S_ .f32 0x00000000#32) h' hu)
        (broadcastInDim S128 ![] h0 (subf (constant (F := Ideal) S_ .f32 0x47C35000#32) (sitofp .f32 (constantI S_ 32 0#32)))))
      nanv (ix1 j)
    = varR H j := by
  rw [var_apply]
  unfold varR
  refine congrArg (fun f => Ideal.div (colSum f) cnt) (funext fun r => ?_)
  rw [mulf_apply, subf_apply, meanRow_apply]
  rfl

/-! ## The second stretch -/

/-- The second stretch, from any contents: the result at (g, j) is zero plus the sum over the nodes of graph g of the
    features' column j normalised with the column's mean and variance over all rows, scaled and shifted. -/
theorem ref_tail (W : Valuation τ sig (Elt Ideal)) (g : Fin 256) (j : Fin 128) :
    after (opsB (F := Ideal)) W (main_v51 : DevRef τ sig) (ix2 g j)
      = Cert.Gin.outR (W (main_v29 : DevRef τ sig)) (fun i => W (main_arg2 : DevRef τ sig) (ix1 (i 0)))
          (Cert.Mlp.vec (W (main_arg9 : DevRef τ sig))) (Cert.Mlp.vec (W (main_arg10 : DevRef τ sig))) g j := by
  after_results_simp
  simp only [TRef.ofBuf, TRef.toBuf, cast_eq, id]
  generalize W (main_v29 : DevRef τ sig) = H
  generalize W (main_arg2 : DevRef τ sig) = B
  generalize W (main_arg9 : DevRef τ sig) = gam
  generalize W (main_arg10 : DevRef τ sig) = bet
  revert H B gam bet
  show ∀ (H : FVec Ideal S100000x128 .f32) (B : IVec S100000 32) (gam bet : FVec Ideal S128 .f32), _
  intro H B gam bet
  rw [scatter_apply, broadcastInDim_scalar_apply, constant_apply]
  unfold outR
  refine congrArg₂ (· + ·) rfl (Finset.sum_congr rfl fun r _ => ?_)
  rw [bcast_col]
  refine congrArg (hot (B (ix1 r)) g * ·) ?_
  simp only [addf_apply, mulf_apply, subf_apply]
  rw [Cert.Mlp.bcast_two, Cert.Mlp.bcast_two, Cert.Mlp.bcast_two, Cert.Mlp.bcast_two]
  rw [mean_apply, hostRsqrt_apply, addf_apply, varV_apply, broadcastInDim_scalar_apply, constant_apply]
  rfl

end Cert.ReferenceIdeal.Val

end
-- ==== Proof.lean ====
/-
  The kernel computes, per graph, the sum of its nodes' features after three dense stages (fed with each node's own
  features plus its in-neighbours' sum) and a column-wise normalisation by the mean and biased variance over all
  nodes.  The reference takes every column sum over all 100000 rows at once; the kernel takes them per block of 5000
  rows in three passes — the dense stages and the column sums, the squared deviations, the normalisation and the
  per-graph sums through a zero-one matrix product — each accumulated per half of the rows from zero, and adds the two
  halves on the host.  Over the extended reals addition is commutative and associative, so the two halves' block
  sums are the whole sum; a variance is a nonnegative number, so flooring it at zero changes nothing; a product with
  a zero-one indicator summed over all nodes is the sum over the indicated nodes; and the neighbours' sum is one and the
  same host term in both programs.  The frames of the two kernel programs are the generated ones; the reference's is
  its run as one straight line of host operations.
-/
import proofs.«421296_j1039382085872_3_alg».proof.Defs
import proofs.«421296_j1039382085872_3_alg».proof.Proof.Gen.Kernel
import proofs.«421296_j1039382085872_3_alg».proof.Proof.Gen.Kernel.Frame
import proofs.«421296_j1039382085872_3_alg».proof.Proof.Gen.KernelIdeal
import proofs.«421296_j1039382085872_3_alg».proof.Proof.Gen.KernelIdeal.Frame
import proofs.«421296_j1039382085872_3_alg».proof.Proof.Gen.ReferenceIdeal
import proofs.«421296_j1039382085872_3_alg».proof.Proof.Gen.Pre_finite_inputs
import proofs.«421296_j1039382085872_3_alg».proof.Proof.KRun
import proofs.«421296_j1039382085872_3_alg».proof.Proof.KValue
import proofs.«421296_j1039382085872_3_alg».proof.Proof.RRun
import proofs.«421296_j1039382085872_3_alg».proof.Proof.RArgs
import proofs.«421296_j1039382085872_3_alg».proof.Proof.RValueA
import proofs.«421296_j1039382085872_3_alg».proof.Proof.RValueB

set_option maxRecDepth 16384

noncomputable section

open Idealize.ShloMosaic Idealize.ShloMosaic.TcCoe Idealize.SL.Sem Idealize.ShloMosaic.ValueIdx

namespace Cert.Proof

/-- The two programs compute the neighbours' sum by the same host operations on the same arguments. -/
theorem agg_eq (x : Vec Ideal Cert.KernelIdeal.S100000x64 .f32) (ei : Vec Ideal Cert.KernelIdeal.S2x1600000 .i32) :
    Cert.ReferenceIdeal.Val.aggR x ei = Cert.KernelIdeal.Val.aggK x ei := by
  unfold Cert.ReferenceIdeal.Val.aggR Cert.KernelIdeal.Val.aggK
  rfl

/-- The reference's result at (g, j) as a function of its launch memory. -/
theorem ref_val (m' : (ℓ : Loc Cert.ReferenceIdeal.nD Cert.ReferenceIdeal.τ Cert.ReferenceIdeal.sig) → Buf (Elt Ideal) ℓ) (c : Dev Cert.ReferenceIdeal.nD) (g : Fin 256) (j : Fin 128) :
    StableHlo.after (Cert.ReferenceIdeal.Val.ops (F := Ideal)) (StableHlo.launchContents m' c) (Proc.devRef .tc Cert.ReferenceIdeal.main_v51) (ix2 g j)
      = Cert.Gin.outR (Cert.Gin.mlp (m' ((c.tc : Thread Cert.ReferenceIdeal.nD Cert.ReferenceIdeal.τ).loc Cert.ReferenceIdeal.main_arg0)) (Cert.ReferenceIdeal.Val.aggR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
          (m' ((c.tc : Thread Cert.ReferenceIdeal.nD Cert.ReferenceIdeal.τ).loc Cert.ReferenceIdeal.main_arg3)) (Cert.Mlp.vec (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg5)) (Cert.Mlp.vec (m' ((c.tc : Thread Cert.ReferenceIdeal.nD Cert.ReferenceIdeal.τ).loc Cert.ReferenceIdeal.main_arg6)))
          (m' ((c.tc : Thread Cert.ReferenceIdeal.nD Cert.ReferenceIdeal.τ).loc Cert.ReferenceIdeal.main_arg7)) (Cert.Mlp.vec (m' ((c.tc : Thread Cert.ReferenceIdeal.nD Cert.ReferenceIdeal.τ).loc Cert.ReferenceIdeal.main_arg8))))
          (fun i => (m' ((c.tc : Thread Cert.ReferenceIdeal.nD Cert.ReferenceIdeal.τ).loc Cert.ReferenceIdeal.main_arg2)) (ix1 (i 0))) (Cert.Mlp.vec (m' ((c.tc : Thread Cert.ReferenceIdeal.nD Cert.ReferenceIdeal.τ).loc Cert.ReferenceIdeal.main_arg9))) (Cert.Mlp.vec (m' ((c.tc : Thread Cert.ReferenceIdeal.nD Cert.ReferenceIdeal.τ).loc Cert.ReferenceIdeal.main_arg10))) g j := by
  unfold Cert.ReferenceIdeal.Val.ops
  rw [Cert.ReferenceIdeal.Val.after_append, Cert.ReferenceIdeal.Val.ref_tail, Cert.ReferenceIdeal.Val.ref_h,
    Cert.ReferenceIdeal.Val.opsA_arg2, Cert.ReferenceIdeal.Val.opsA_arg9, Cert.ReferenceIdeal.Val.opsA_arg10]

theorem frame_ri : Cert.frame_ReferenceIdeal := fun m ρ _ =>
  (θ_run Cert.ReferenceIdeal.defs _ _).mono (fun _ h c =>
    ⟨(h c Cert.ReferenceIdeal.main_arg0).trans (Cert.ReferenceIdeal.Val.ops_arg0 _),
     (h c Cert.ReferenceIdeal.main_arg1).trans (Cert.ReferenceIdeal.Val.ops_arg1 _),
     (h c Cert.ReferenceIdeal.main_arg2).trans (Cert.ReferenceIdeal.Val.ops_arg2 _),
     (h c Cert.ReferenceIdeal.main_arg3).trans (Cert.ReferenceIdeal.Val.ops_arg3 _),
     (h c Cert.ReferenceIdeal.main_arg4).trans (Cert.ReferenceIdeal.Val.ops_arg4 _),
     (h c Cert.ReferenceIdeal.main_arg5).trans (Cert.ReferenceIdeal.Val.ops_arg5 _),
     (h c Cert.ReferenceIdeal.main_arg6).trans (Cert.ReferenceIdeal.Val.ops_arg6 _),
     (h c Cert.ReferenceIdeal.main_arg7).trans (Cert.ReferenceIdeal.Val.ops_arg7 _),
     (h c Cert.ReferenceIdeal.main_arg8).trans (Cert.ReferenceIdeal.Val.ops_arg8 _),
     (h c Cert.ReferenceIdeal.main_arg9).trans (Cert.ReferenceIdeal.Val.ops_arg9 _),
     (h c Cert.ReferenceIdeal.main_arg10).trans (Cert.ReferenceIdeal.Val.ops_arg10 _)⟩)
    (Cert.ReferenceIdeal.Val.run_main (F := Ideal) m ρ)

/-- From memories that agree on the arguments both programs end with the same result: at graph g and column j, zero
    plus the sum over the nodes of graph g of the normalised features. -/
theorem algebraic : Cert.algebraic_KernelIdeal_ReferenceIdeal := by
  intro m ρ m' ρ' _ hagree
  refine ⟨fun c => fun i => Cert.Gin.outR (Cert.KernelIdeal.Val.Hk m c) (Cert.KernelIdeal.Val.Bk m c)
      (Cert.Mlp.vec (m ((c.tc : Thread Cert.KernelIdeal.nD Cert.KernelIdeal.τ).loc Cert.KernelIdeal.main_arg9)))
      (Cert.Mlp.vec (m ((c.tc : Thread Cert.KernelIdeal.nD Cert.KernelIdeal.τ).loc Cert.KernelIdeal.main_arg10))) (i 0) (i 1), ?_, ?_⟩
  · refine (θ_run Cert.KernelIdeal.defs _ _).mono (fun _ h c => ⟨(h c).1.trans ?_, (h c).2⟩)
      (Cert.KernelIdeal.Val.run (F := Ideal) m ρ)
    funext i
    obtain ⟨g, j, rfl⟩ : ∃ (g : Fin 256) (j : Fin 128), i = ix2 g j := ⟨i 0, i 1, eq_ix2 i⟩
    exact Cert.KernelIdeal.Val.kval m ρ c g j
  · refine (θ_run Cert.ReferenceIdeal.defs _ _).mono (fun _ h c =>
      ⟨(h c Cert.ReferenceIdeal.main_v51).trans ?_,
       (h c Cert.ReferenceIdeal.main_arg0).trans (Cert.ReferenceIdeal.Val.ops_arg0 _),
       (h c Cert.ReferenceIdeal.main_arg1).trans (Cert.ReferenceIdeal.Val.ops_arg1 _),
       (h c Cert.ReferenceIdeal.main_arg2).trans (Cert.ReferenceIdeal.Val.ops_arg2 _),
       (h c Cert.ReferenceIdeal.main_arg3).trans (Cert.ReferenceIdeal.Val.ops_arg3 _),
       (h c Cert.ReferenceIdeal.main_arg4).trans (Cert.ReferenceIdeal.Val.ops_arg4 _),
       (h c Cert.ReferenceIdeal.main_arg5).trans (Cert.ReferenceIdeal.Val.ops_arg5 _),
       (h c Cert.ReferenceIdeal.main_arg6).trans (Cert.ReferenceIdeal.Val.ops_arg6 _),
       (h c Cert.ReferenceIdeal.main_arg7).trans (Cert.ReferenceIdeal.Val.ops_arg7 _),
       (h c Cert.ReferenceIdeal.main_arg8).trans (Cert.ReferenceIdeal.Val.ops_arg8 _),
       (h c Cert.ReferenceIdeal.main_arg9).trans (Cert.ReferenceIdeal.Val.ops_arg9 _),
       (h c Cert.ReferenceIdeal.main_arg10).trans (Cert.ReferenceIdeal.Val.ops_arg10 _)⟩)
      (Cert.ReferenceIdeal.Val.run_main (F := Ideal) m' ρ')
    funext i
    obtain ⟨g, j, rfl⟩ : ∃ (g : Fin 256) (j : Fin 128), i = ix2 g j := ⟨i 0, i 1, eq_ix2 i⟩
    refine (ref_val m' c g j).trans ?_
    obtain ⟨h0, h1, h2, h3, h4, h5, h6, h7, h8, h9, h10⟩ := hagree c
    rw [h0, h1, h2, h3, h4, h5, h6, h7, h8, h9, h10, agg_eq]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
